-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S8380416 : Shape := ⟨1, ![8380416]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  bcast_S_S8380416 : S_.BroadcastsInDim S8380416 (![] : Fin 0 → Fin S8380416.rank)
  reducesTo_S8380416_S_d0 : S8380416.ReducesTo [0] S_

variable [Facts]

def fn_part1 {F : FTy → Type} [FloatOps F] (main_arg2 : IVec S8380416 32) (main_v15 : IVec S_ 1) : IVec S_ 1 :=
  let main_c_6 : IVec S_ 32 := constantI S_ 32 8192#32
  let main_v16 : IVec S8380416 32 := broadcastInDim S8380416 ![] bcast_S_S8380416 main_c_6
  let main_v17 : IVec S8380416 1 := cmpi .slt main_arg2 main_v16
  let main_c_7 : IVec S_ 1 := constantI S_ 1 1#1
  let main_v18 : IVec S_ 1 := (fun x v => Host.reduce IntOp.andi x v reducesTo_S8380416_S_d0 h_S_) main_v17 main_c_7
  let main_v19 : IVec S_ 1 := andi main_v15 main_v18
  main_v19

def fn {F : FTy → Type} [FloatOps F] (main_arg0 : FVec F S8192x3 .f32) (main_arg1 : IVec S8380416 32) (main_arg2 : IVec S8380416 32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_c_0 : IVec S_ 32 := constantI S_ 32 4294959104#32
  let main_v4 : IVec S8380416 32 := broadcastInDim S8380416 ![] bcast_S_S8380416 main_c_0
  let main_v5 : IVec S8380416 1 := cmpi .sge main_arg1 main_v4
  let main_c_1 : IVec S_ 1 := constantI S_ 1 1#1
  let main_v6 : IVec S_ 1 := (fun x v => Host.reduce IntOp.andi x v reducesTo_S8380416_S_d0 h_S_) main_v5 main_c_1
  let main_v7 : IVec S_ 1 := andi main_v3 main_v6
  let main_c_2 : IVec S_ 32 := constantI S_ 32 8192#32
  let main_v8 : IVec S8380416 32 := broadcastInDim S8380416 ![] bcast_S_S8380416 main_c_2
  let main_v9 : IVec S8380416 1 := cmpi .slt main_arg1 main_v8
  let main_c_3 : IVec S_ 1 := constantI S_ 1 1#1
  let main_v10 : IVec S_ 1 := (fun x v => Host.reduce IntOp.andi x v reducesTo_S8380416_S_d0 h_S_) main_v9 main_c_3
  let main_v11 : IVec S_ 1 := andi main_v7 main_v10
  let main_c_4 : IVec S_ 32 := constantI S_ 32 4294959104#32
  let main_v12 : IVec S8380416 32 := broadcastInDim S8380416 ![] bcast_S_S8380416 main_c_4
  let main_v13 : IVec S8380416 1 := cmpi .sge main_arg2 main_v12
  let main_c_5 : IVec S_ 1 := constantI S_ 1 1#1
  let main_v14 : IVec S_ 1 := (fun x v => Host.reduce IntOp.andi x v reducesTo_S8380416_S_d0 h_S_) main_v13 main_c_5
  let main_v15 : IVec S_ 1 := andi main_v11 main_v14
  fn_part1 (F := F) main_arg2 main_v15
-- ==== Kernel.lean ====
abbrev S8192x3 : Shape := ⟨2, ![8192, 3]⟩
abbrev S8380416 : Shape := ⟨1, ![8380416]⟩
abbrev S3x8192 : Shape := ⟨2, ![3, 8192]⟩
abbrev S_ : Shape := ⟨0, ![]⟩
abbrev S8380416x1 : Shape := ⟨2, ![8380416, 1]⟩
abbrev S1 : Shape := ⟨1, ![1]⟩
abbrev S1x1 : Shape := ⟨2, ![1, 1]⟩
abbrev S3x8380416 : Shape := ⟨2, ![3, 8380416]⟩
abbrev S3x93x88x1024 : Shape := ⟨4, ![3, 93, 88, 1024]⟩
abbrev S5x93x88x1024 : Shape := ⟨4, ![5, 93, 88, 1024]⟩
abbrev S3x1x88x1024 : Shape := ⟨4, ![3, 1, 88, 1024]⟩
abbrev S5x1x88x1024 : Shape := ⟨4, ![5, 1, 88, 1024]⟩
abbrev S1x1x88x1024 : Shape := ⟨4, ![1, 1, 88, 1024]⟩
abbrev S88x1024 : Shape := ⟨2, ![88, 1024]⟩
abbrev S5x8380416 : Shape := ⟨2, ![5, 8380416]⟩
abbrev S8380416x5 : Shape := ⟨2, ![8380416, 5]⟩

abbrev nBuf : Space → Nat
  | .hbm => 55
  | .vmem => 6
  | .smem => 0
  | _ => 0

abbrev bufTy : (tb : Table) → Fin (tcTables nBuf tb) → BufTy
  | .hbm, ⟨0, _⟩ => ⟨S8192x3, .f32⟩
  | .hbm, ⟨1, _⟩ => ⟨S8380416, .i32⟩
  | .hbm, ⟨2, _⟩ => ⟨S8380416, .i32⟩
  | .hbm, ⟨3, _⟩ => ⟨S3x8192, .f32⟩
  | .hbm, ⟨4, _⟩ => ⟨S_, .i32⟩
  | .hbm, ⟨5, _⟩ => ⟨S8380416, .i32⟩
  | .hbm, ⟨6, _⟩ => ⟨S8380416, .i1⟩
  | .hbm, ⟨7, _⟩ => ⟨S_, .i32⟩
  | .hbm, ⟨8, _⟩ => ⟨S8380416, .i32⟩
  | .hbm, ⟨9, _⟩ => ⟨S8380416, .i32⟩
  | .hbm, ⟨10, _⟩ => ⟨S8380416, .i32⟩
  | .hbm, ⟨11, _⟩ => ⟨S8380416x1, .i32⟩
  | .hbm, ⟨12, _⟩ => ⟨S1, .i32⟩
  | .hbm, ⟨13, _⟩ => ⟨S_, .i32⟩
  | .hbm, ⟨14, _⟩ => ⟨S8380416x1, .i32⟩
  | .hbm, ⟨15, _⟩ => ⟨S8380416x1, .i1⟩
  | .hbm, ⟨16, _⟩ => ⟨S1x1, .i32⟩
  | .hbm, ⟨17, _⟩ => ⟨S8380416x1, .i32⟩
  | .hbm, ⟨18, _⟩ => ⟨S8380416x1, .i1⟩
  | .hbm, ⟨19, _⟩ => ⟨S8380416x1, .i1⟩
  | .hbm, ⟨20, _⟩ => ⟨S_, .i1⟩
  | .hbm, ⟨21, _⟩ => ⟨S8380416, .i1⟩
  | .hbm, ⟨22, _⟩ => ⟨S3x8380416, .f32⟩
  | .hbm, ⟨23, _⟩ => ⟨S3x8380416, .i1⟩
  | .hbm, ⟨24, _⟩ => ⟨S_, .f32⟩
  | .hbm, ⟨25, _⟩ => ⟨S3x8380416, .f32⟩
  | .hbm, ⟨26, _⟩ => ⟨S3x8380416, .f32⟩
  | .hbm, ⟨27, _⟩ => ⟨S_, .i32⟩
  | .hbm, ⟨28, _⟩ => ⟨S8380416, .i32⟩
  | .hbm, ⟨29, _⟩ => ⟨S8380416, .i1⟩
  | .hbm, ⟨30, _⟩ => ⟨S_, .i32⟩
  | .hbm, ⟨31, _⟩ => ⟨S8380416, .i32⟩
  | .hbm, ⟨32, _⟩ => ⟨S8380416, .i32⟩
  | .hbm, ⟨33, _⟩ => ⟨S8380416, .i32⟩
  | .hbm, ⟨34, _⟩ => ⟨S8380416x1, .i32⟩
  | .hbm, ⟨35, _⟩ => ⟨S1, .i32⟩
  | .hbm, ⟨36, _⟩ => ⟨S_, .i32⟩
  | .hbm, ⟨37, _⟩ => ⟨S8380416x1, .i32⟩
  | .hbm, ⟨38, _⟩ => ⟨S8380416x1, .i1⟩
  | .hbm, ⟨39, _⟩ => ⟨S1x1, .i32⟩
  | .hbm, ⟨40, _⟩ => ⟨S8380416x1, .i32⟩
  | .hbm, ⟨41, _⟩ => ⟨S8380416x1, .i1⟩
  | .hbm, ⟨42, _⟩ => ⟨S8380416x1, .i1⟩
  | .hbm, ⟨43, _⟩ => ⟨S_, .i1⟩
  | .hbm, ⟨44, _⟩ => ⟨S8380416, .i1⟩
  | .hbm, ⟨45, _⟩ => ⟨S3x8380416, .f32⟩
  | .hbm, ⟨46, _⟩ => ⟨S3x8380416, .i1⟩
  | .hbm, ⟨47, _⟩ => ⟨S_, .f32⟩
  | .hbm, ⟨48, _⟩ => ⟨S3x8380416, .f32⟩
  | .hbm, ⟨49, _⟩ => ⟨S3x8380416, .f32⟩
  | .hbm, ⟨50, _⟩ => ⟨S3x93x88x1024, .f32⟩
  | .hbm, ⟨51, _⟩ => ⟨S3x93x88x1024, .f32⟩
  | .hbm, ⟨52, _⟩ => ⟨S5x93x88x1024, .f32⟩
  | .hbm, ⟨53, _⟩ => ⟨S5x8380416, .f32⟩
  | .hbm, ⟨54, _⟩ => ⟨S8380416x5, .f32⟩
  | .local _ .vmem, ⟨0, _⟩ => ⟨S3x1x88x1024, .f32⟩
  | .local _ .vmem, ⟨1, _⟩ => ⟨S3x1x88x1024, .f32⟩
  | .local _ .vmem, ⟨2, _⟩ => ⟨S3x1x88x1024, .f32⟩
  | .local _ .vmem, ⟨3, _⟩ => ⟨S3x1x88x1024, .f32⟩
  | .local _ .vmem, ⟨4, _⟩ => ⟨S5x1x88x1024, .f32⟩
  | .local _ .vmem, ⟨5, _⟩ => ⟨S5x1x88x1024, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![93], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S3x1x88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1x88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5x1x88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S8192x3_S3x8192_1_0 : S8192x3.Transposes [1, 0] S3x8192
  bcast_S_S8380416 : S_.BroadcastsInDim S8380416 (![] : Fin 0 → Fin S8380416.rank)
  bcast_S8380416_S8380416x1_0 : S8380416.BroadcastsInDim S8380416x1 (![0] : Fin 1 → Fin S8380416x1.rank)
  bcast_S_S8380416x1 : S_.BroadcastsInDim S8380416x1 (![] : Fin 0 → Fin S8380416x1.rank)
  bcast_S1_S1x1_1 : S1.BroadcastsInDim S1x1 (![1] : Fin 1 → Fin S1x1.rank)
  bcast_S1x1_S8380416x1_0_1 : S1x1.BroadcastsInDim S8380416x1 (![0, 1] : Fin 2 → Fin S8380416x1.rank)
  reducesTo_S8380416x1_S8380416_d1 : S8380416x1.ReducesTo [1] S8380416
  h_S_ : 0 < S_.numel
  bcast_S8380416_S3x8380416_1 : S8380416.BroadcastsInDim S3x8380416 (![1] : Fin 1 → Fin S3x8380416.rank)
  bcast_S_S3x8380416 : S_.BroadcastsInDim S3x8380416 (![] : Fin 0 → Fin S3x8380416.rank)
  shapeCasts_S3x8380416_S3x93x88x1024 : S3x8380416.ShapeCasts S3x93x88x1024
  inb_S3x1x88x1024_S1x1x88x1024_0_0_0_0 : ∀ a, (![0, 0, 0, 0] : Fin 4 → Nat) a + S1x1x88x1024.size a ≤ S3x1x88x1024.size a
  h_S1x1x88x1024 : 0 < S1x1x88x1024.numel
  shapeCasts_S1x1x88x1024_S88x1024 : S1x1x88x1024.ShapeCasts S88x1024
  inb_S3x1x88x1024_S1x1x88x1024_1_0_0_0 : ∀ a, (![1, 0, 0, 0] : Fin 4 → Nat) a + S1x1x88x1024.size a ≤ S3x1x88x1024.size a
  inb_S3x1x88x1024_S1x1x88x1024_2_0_0_0 : ∀ a, (![2, 0, 0, 0] : Fin 4 → Nat) a + S1x1x88x1024.size a ≤ S3x1x88x1024.size a
  inb_S5x1x88x1024_S1x1x88x1024_0_0_0_0 : ∀ a, (![0, 0, 0, 0] : Fin 4 → Nat) a + S1x1x88x1024.size a ≤ S5x1x88x1024.size a
  shapeCasts_S88x1024_S1x1x88x1024 : S88x1024.ShapeCasts S1x1x88x1024
  inb_S5x1x88x1024_S1x1x88x1024_1_0_0_0 : ∀ a, (![1, 0, 0, 0] : Fin 4 → Nat) a + S1x1x88x1024.size a ≤ S5x1x88x1024.size a
  inb_S5x1x88x1024_S1x1x88x1024_2_0_0_0 : ∀ a, (![2, 0, 0, 0] : Fin 4 → Nat) a + S1x1x88x1024.size a ≤ S5x1x88x1024.size a
  inb_S5x1x88x1024_S1x1x88x1024_3_0_0_0 : ∀ a, (![3, 0, 0, 0] : Fin 4 → Nat) a + S1x1x88x1024.size a ≤ S5x1x88x1024.size a
  inb_S5x1x88x1024_S1x1x88x1024_4_0_0_0 : ∀ a, (![4, 0, 0, 0] : Fin 4 → Nat) a + S1x1x88x1024.size a ≤ S5x1x88x1024.size a
  shapeCasts_S5x93x88x1024_S5x8380416 : S5x93x88x1024.ShapeCasts S5x8380416
  transposes_S5x8380416_S8380416x5_1_0 : S5x8380416.Transposes [1, 0] S8380416x5
  gather_S3x8192_S8380416x1_S3x8380416_0_1_n_n_1_1_31_wf : GatherDims.WF S3x8192 S8380416x1 S3x8380416 [0] [1] [] [1] [] 1 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x1x88x1024.size a ≤ S3x93x88x1024.size a
  hwx0_0 : ∀ i : grid0.Coords, EltTy.bits .f32 = 32 ∨ (Rect.block (s := S3x93x88x1024) S3x1x88x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1x88x1024.size a ≤ S3x93x88x1024.size a
  hwx0_1 : ∀ i : grid0.Coords, EltTy.bits .f32 = 32 ∨ (Rect.block (s := S3x93x88x1024) S3x1x88x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5x1x88x1024.size a ≤ S5x93x88x1024.size a
  hwx0_2 : ∀ i : grid0.Coords, EltTy.bits .f32 = 32 ∨ (Rect.block (s := S5x93x88x1024) S5x1x88x1024.size (cc0_transform_2 i) (hinb0_2 i)).WholeWords (EltTy.packing .f32)

variable [Facts₀]

def gather_S3x8192_S8380416x1_S3x8380416_0_1_n_n_1_1_31 : GatherDims S3x8192 S8380416x1 S3x8380416 where
  offsetDims := [0]
  collapsedSliceDims := [1]
  operandBatchingDims := []
  startIndicesBatchingDims := []
  startIndexMap := [1]
  indexVectorDim := 1
  sliceSizes := ![3, 1]
  wf := gather_S3x8192_S8380416x1_S3x8380416_0_1_n_n_1_1_31_wf

abbrev win0_0 : Pipeline.Window sig grid0 :=
  Pipeline.Window.ofSpec (Memref.whole main_v3) S3x1x88x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S3x1x88x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5x1x88x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x3 : Shape := ⟨2, ![8192, 3]⟩
abbrev S8380416 : Shape := ⟨1, ![8380416]⟩
abbrev S_ : Shape := ⟨0, ![]⟩
abbrev S8380416x1 : Shape := ⟨2, ![8380416, 1]⟩
abbrev S8380416x3 : Shape := ⟨2, ![8380416, 3]⟩
abbrev S8380416x5 : Shape := ⟨2, ![8380416, 5]⟩

abbrev nBuf : Space → Nat
  | .hbm => 46
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8380416, .i32⟩
  | .hbm, ⟨2, _⟩ => ⟨S8380416, .i32⟩
  | .hbm, ⟨3, _⟩ => ⟨S_, .i32⟩
  | .hbm, ⟨4, _⟩ => ⟨S8380416, .i32⟩
  | .hbm, ⟨5, _⟩ => ⟨S8380416, .i1⟩
  | .hbm, ⟨6, _⟩ => ⟨S_, .i32⟩
  | .hbm, ⟨7, _⟩ => ⟨S8380416, .i32⟩
  | .hbm, ⟨8, _⟩ => ⟨S8380416, .i32⟩
  | .hbm, ⟨9, _⟩ => ⟨S8380416, .i32⟩
  | .hbm, ⟨10, _⟩ => ⟨S8380416x1, .i32⟩
  | .hbm, ⟨11, _⟩ => ⟨S8380416x3, .f32⟩
  | .hbm, ⟨12, _⟩ => ⟨S_, .i32⟩
  | .hbm, ⟨13, _⟩ => ⟨S8380416, .i32⟩
  | .hbm, ⟨14, _⟩ => ⟨S8380416, .i1⟩
  | .hbm, ⟨15, _⟩ => ⟨S_, .i32⟩
  | .hbm, ⟨16, _⟩ => ⟨S8380416, .i32⟩
  | .hbm, ⟨17, _⟩ => ⟨S8380416, .i32⟩
  | .hbm, ⟨18, _⟩ => ⟨S8380416, .i32⟩
  | .hbm, ⟨19, _⟩ => ⟨S8380416x1, .i32⟩
  | .hbm, ⟨20, _⟩ => ⟨S8380416x3, .f32⟩
  | .hbm, ⟨21, _⟩ => ⟨S8380416x3, .f32⟩
  | .hbm, ⟨22, _⟩ => ⟨S8380416x3, .f32⟩
  | .hbm, ⟨23, _⟩ => ⟨S_, .f32⟩
  | .hbm, ⟨24, _⟩ => ⟨S8380416, .f32⟩
  | .hbm, ⟨25, _⟩ => ⟨S8380416, .f32⟩
  | .hbm, ⟨26, _⟩ => ⟨S_, .f32⟩
  | .hbm, ⟨27, _⟩ => ⟨S8380416, .f32⟩
  | .hbm, ⟨28, _⟩ => ⟨S8380416, .i1⟩
  | .hbm, ⟨29, _⟩ => ⟨S_, .f32⟩
  | .hbm, ⟨30, _⟩ => ⟨S8380416, .f32⟩
  | .hbm, ⟨31, _⟩ => ⟨S8380416, .f32⟩
  | .hbm, ⟨32, _⟩ => ⟨S8380416, .f32⟩
  | .hbm, ⟨33, _⟩ => ⟨S_, .f32⟩
  | .hbm, ⟨34, _⟩ => ⟨S8380416, .f32⟩
  | .hbm, ⟨35, _⟩ => ⟨S8380416, .f32⟩
  | .hbm, ⟨36, _⟩ => ⟨S_, .f32⟩
  | .hbm, ⟨37, _⟩ => ⟨S8380416, .f32⟩
  | .hbm, ⟨38, _⟩ => ⟨S8380416, .f32⟩
  | .hbm, ⟨39, _⟩ => ⟨S_, .f32⟩
  | .hbm, ⟨40, _⟩ => ⟨S_, .f32⟩
  | .hbm, ⟨41, _⟩ => ⟨S8380416, .f32⟩
  | .hbm, ⟨42, _⟩ => ⟨S8380416, .f32⟩
  | .hbm, ⟨43, _⟩ => ⟨S8380416x1, .f32⟩
  | .hbm, ⟨44, _⟩ => ⟨S8380416x1, .f32⟩
  | .hbm, ⟨45, _⟩ => ⟨S8380416x5, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  bcast_S_S8380416 : S_.BroadcastsInDim S8380416 (![] : Fin 0 → Fin S8380416.rank)
  bcast_S8380416_S8380416x1_0 : S8380416.BroadcastsInDim S8380416x1 (![0] : Fin 1 → Fin S8380416x1.rank)
  reducesTo_S8380416x3_S8380416_d1 : S8380416x3.ReducesTo [1] S8380416
  h_S_ : 0 < S_.numel
  concatenates_S8380416x3_S8380416x1_S8380416x1_S8380416x5_d1 : Shape.Concatenates [S8380416x3, S8380416x1, S8380416x1] S8380416x5 1
  gather_S8192x3_S8380416x1_S8380416x3_1_0_n_n_0_1_13_wf : GatherDims.WF S8192x3 S8380416x1 S8380416x3 [1] [0] [] [0] [] 1 ![1, 3]

variable [Facts₀]

def gather_S8192x3_S8380416x1_S8380416x3_1_0_n_n_0_1_13 : GatherDims S8192x3 S8380416x1 S8380416x3 where
  offsetDims := [1]
  collapsedSliceDims := [0]
  operandBatchingDims := []
  startIndicesBatchingDims := []
  startIndexMap := [0]
  indexVectorDim := 1
  sliceSizes := ![1, 3]
  wf := gather_S8192x3_S8380416x1_S8380416x3_1_0_n_n_0_1_13_wf

class Facts : Prop extends Facts₀ where

variable [Facts]
-- ==== Proof.Spec.lean ====
/-
  The edge features as ONE function of the three argument arrays, index by index, over the extended reals.

  For edge `e` with end points `s = src e` and `t = dst e` (index words, a negative one counted from the table's end, the
  result read signed and clamped into the table's 8192 rows as a gather does), the row of five numbers is
      v = coords[t] - coords[s]          (three components)
      d = sqrt (v₀² + v₁² + v₂²)
      w = if d < 5 then 1/2 · cos (d · κ) + 1/2 else 0,   κ the single-precision word nearest π/5,
  laid out as [v₀, v₁, v₂, d, w]. Everything downstream of the three differences is `rowFeat`, a function of the
  difference vector alone: the kernel computes it on planes of 88 × 1024 edges, the reference on the whole edge list.
-/
import Idealize.ShloMosaic.PureOps.Ideal
import Idealize.ShloMosaic.PureOps.Ideal.Laws
import Idealize.ShloMosaic.Lib.ValueIdx

noncomputable section

namespace Cert.EdgeFeat

open Idealize.ShloMosaic Idealize.ShloMosaic.ValueIdx

/-- An index word counted from the end of a table of 8192 rows when it is negative. -/
def wrap (x : BitVec 32) : BitVec 32 := Scalar.select (IntOp.cmpi .slt x 0#32) (IntOp.addi x 8192#32) x

/-- The row a gather reads at a start word: the word read signed, clamped into the table. -/
def rowAt (w : BitVec 32) : Fin 8192 := ⟨min w.toInt.toNat (8192 - 1), by omega⟩

/-- The distance: the root of the sum of the squared components, summed first to second to third. -/
def norm3 (v : Fin 3 → EReal) : EReal := Ideal.sqrt (v 0 * v 0 + v 1 * v 1 + v 2 * v 2)

/-- The cosine switch of a distance: `1/2 · cos (d · κ) + 1/2` below the cutoff 5, zero from it on. -/
def switchOf (d : EReal) : EReal :=
  Scalar.select (Ideal.cmp .olt d (Ideal.ofBits .f32 0x40A00000#32))
    (Ideal.ofBits .f32 0x3F000000#32 * Ideal.cos (d * Ideal.ofBits .f32 0x3F20D97C#32) + Ideal.ofBits .f32 0x3F000000#32)
    (Ideal.ofBits .f32 0x00000000#32)

/-- One edge's five features from its difference vector. -/
def rowFeat (v : Fin 3 → EReal) (c : Fin 5) : EReal :=
  (![v 0, v 1, v 2, norm3 v, switchOf (norm3 v)] : Fin 5 → EReal) c

variable (coords : (⟨2, ![8192, 3]⟩ : Shape).Idx → EReal) (src dst : (⟨1, ![8380416]⟩ : Shape).Idx → BitVec 32)

/-- Component `k` of edge `e`'s difference vector: the destination's coordinate less the source's. -/
def vec (e : Fin 8380416) (k : Fin 3) : EReal :=
  coords (ix2 (rowAt (wrap (dst (ix1 e)))) k) - coords (ix2 (rowAt (wrap (src (ix1 e)))) k)

/-- The whole result: row `e`, column `c`. -/
def feat : (⟨2, ![8380416, 5]⟩ : Shape).Idx → EReal :=
  fun j => rowFeat (vec coords src dst ⟨(j 0).val, (j 0).isLt⟩) ⟨(j 1).val, (j 1).isLt⟩

theorem feat_ix2 (e : Fin 8380416) (c : Fin 5) : feat coords src dst (ix2 e c) = rowFeat (vec coords src dst e) c := rfl

/-- An index word in `[-8192, 8192)`, wrapped, lies in `[0, 8191]`: the two signed comparisons a fill-mode take makes of it
    both hold. (`4294959104` is the 32-bit word of `-8192`.) -/
theorem wrap_inRange (x : BitVec 32) (h1 : IntOp.cmpi .sge x 4294959104#32 = 1#1) (h2 : IntOp.cmpi .slt x 8192#32 = 1#1) :
    IntOp.andi (IntOp.cmpi .sge (wrap x) 0#32) (IntOp.cmpi .sle (wrap x) 8191#32) = 1#1 := by
  -- a comparison word is 1 exactly when the comparison holds
  have ob : ∀ b : Bool, BitVec.ofBool b = 1#1 ↔ b = true := by decide
  have e1 : (4294959104#32 : BitVec 32).toInt = -8192 := by decide
  have e2 : (8192#32 : BitVec 32).toInt = 8192 := by decide
  have e0 : (0#32 : BitVec 32).toInt = 0 := by decide
  have e3 : (8191#32 : BitVec 32).toInt = 8191 := by decide
  -- the hypotheses, read signed: -8192 ≤ x < 8192
  have hx1 : -8192 ≤ x.toInt := by
    have h := (ob _).1 h1
    rw [BitVec.sle_iff_toInt_le, e1] at h
    exact h
  have hx2 : x.toInt < 8192 := by
    have h := (ob _).1 h2
    rw [BitVec.slt_iff_toInt_lt, e2] at h
    exact h
  -- the wrapped word, read signed, lies in [0, 8191]
  have hw : 0 ≤ (wrap x).toInt ∧ (wrap x).toInt ≤ 8191 := by
    unfold wrap
    by_cases hneg : x.toInt < 0
    · have hc : IntOp.cmpi .slt x 0#32 = 1#1 := (ob _).2 (by rw [BitVec.slt_iff_toInt_lt, e0]; exact hneg)
      rw [hc, select_one]
      have hs : (IntOp.addi x 8192#32).toInt = x.toInt + 8192 := by
        show (x + 8192#32).toInt = _
        rw [BitVec.toInt_add, e2]
        exact Int.bmod_eq_of_le (by omega) (by omega)
      rw [hs]; omega
    · have hc : ¬ IntOp.cmpi .slt x 0#32 = 1#1 := fun h => hneg (by
        have h' := (ob _).1 h
        rw [BitVec.slt_iff_toInt_lt, e0] at h'
        exact h')
      rw [eq_zero_of_ne_one hc, select_zero]; omega
  have ha : IntOp.cmpi .sge (wrap x) 0#32 = 1#1 := (ob _).2 (by rw [BitVec.sle_iff_toInt_le, e0]; exact hw.1)
  have hb : IntOp.cmpi .sle (wrap x) 8191#32 = 1#1 := (ob _).2 (by rw [BitVec.sle_iff_toInt_le, e3]; exact hw.2)
  rw [ha, hb]
  decide

end Cert.EdgeFeat

end
-- ==== Proof.PreRange.lean ====
/-
  The precondition, read back: where the printed predicate is all ones, every source and every destination index word
  lies in `[-8192, 8192)`.
-/
import proofs.«420826_j65910568124748_3_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.EdgeFeat.Pre

open Idealize.ShloMosaic Idealize.ShloMosaic.ValueIdx Cert.Pre_finite_inputs

/-- Both index arrays are in range at every position. (`4294959104` is the 32-bit word of `-8192`.) -/
theorem range_of_pre [Cert.Pre_finite_inputs.Facts] (a0 : FVec Ideal S8192x3 .f32) (a1 a2 : IVec S8380416 32)
    (h : Cert.Pre_finite_inputs.fn (F := Ideal) a0 a1 a2 = fun _ => 1#1) :
    (∀ i : S8380416.Idx, IntOp.cmpi .sge (a1 i) 4294959104#32 = 1#1 ∧ IntOp.cmpi .slt (a1 i) 8192#32 = 1#1)
    ∧ (∀ i : S8380416.Idx, IntOp.cmpi .sge (a2 i) 4294959104#32 = 1#1 ∧ IntOp.cmpi .slt (a2 i) 8192#32 = 1#1) := by
  -- the scalar shape has one index
  haveI : Subsingleton S_.Idx := ⟨fun a b => funext fun d => d.elim0⟩
  have h0 := congrFun h (fun d => d.elim0)
  dsimp only [fn, fn_part1] at h0
  -- the scalar conjunction, split from the outside in: (((finite ∧ a1 ≥ lo) ∧ a1 < hi) ∧ a2 ≥ lo) ∧ a2 < hi
  obtain ⟨h0, h18⟩ := IntOp.andi_eq_one.1 h0
  obtain ⟨h0, h14⟩ := IntOp.andi_eq_one.1 h0
  obtain ⟨h0, h10⟩ := IntOp.andi_eq_one.1 h0
  obtain ⟨-, h6⟩ := IntOp.andi_eq_one.1 h0
  -- each and-reduction that came out 1 met a 1 at every position; the broadcast bound read at a position is the bound
  refine ⟨fun i => ⟨?_, ?_⟩, fun i => ⟨?_, ?_⟩⟩
  · exact Host.reduce_andi_all _ _ _ _ _ h6 i
  · exact Host.reduce_andi_all _ _ _ _ _ h10 i
  · exact Host.reduce_andi_all _ _ _ _ _ h14 i
  · exact Host.reduce_andi_all _ _ _ _ _ h18 i

end Cert.EdgeFeat.Pre

end
-- ==== Proof.LibGatherRank2.lean ====
/-
  General lemmas (no program named): a row gather and a column gather of a rank-2 table read at an index, and an
  `and`-reduction of one-bit words that are all one.

  `table[idx]` over a table of `N` rows and `C` columns lowers to a gather whose start indices are an `[n, 1]` column of row
  numbers: the row axis is collapsed and start-indexed, the column axis is the one offset axis with the full slice `C`.
  Result element `(p, q)` is the table's at `(r, q)`, `r` the start word of position `p` read SIGNED and CLAMPED into
  `[0, N - 1]`. The same gather of the transposed table (`C` rows, `N` columns, `take` along axis 1) reads `(q, r)` for result
  element `(q, p)`.
-/
import Idealize.ShloMosaic.PureOps.Reduce
import Idealize.ShloMosaic.Lib.ValueIdx

namespace Cert.Lib.GatherRank2

open Idealize.ShloMosaic Idealize.ShloMosaic.ValueIdx

/-- Every entry of a one-element list is that element. -/
theorem getElem_of_eq_singleton {β : Type} {l : List β} {v : β} (hl : l = [v]) (k : Nat) (hk : k < l.length) :
    l[k] = v := by
  subst hl
  have h0 : k = 0 := by simpa using hk
  subst h0
  rfl

/-- ROWS: `table[idx]` at result element `(p, q)` is the table at (the clamped start row of position `p`, `q`). The hypotheses are
    the printed dimension numbers, each by `rfl`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 (⟨min (idx (ix2 p (0 : Fin 1))).toInt.toNat (N - 1), by omega⟩ : Fin N) q) := by
  -- the operand index is the clamped start plus the batching coordinate plus the offset coordinate, axis by axis
  unfold Host.gather
  congr 1
  have hb : ∀ a : Fin 2, a ∉ d.operandBatchingDims := fun a => by rw [hob]; exact List.not_mem_nil
  -- the result's one batch axis is axis 0 (axis 1 is the offset axis)
  have hbd : d.batchDims = [0] := by
    show Shape.kept _ d.offsetDims = _
    rw [hoff]; rfl
  funext a
  match a with
  | ⟨0, _⟩ =>
    -- the row axis: collapsed (no offset), start-indexed with slice size 1, so the start word clamped into [0, N - 1]
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min _ (N - 1)
    rw [d.batchCoord_eq_zero _ _ (hb 0), d.offCoord_eq_zero _ _ hk]
    simp only [Nat.add_zero]
    unfold GatherDims.start
    rw [dif_pos hm]
    show min (idx _).toInt.toNat (N - d.sliceSizes 0) = _
    rw [hsl]
    -- the start word is read at (p, 0): p from the result's batch axis, 0 the one component of the index vector
    have hsi : d.siIdx (ix2 p q) ⟨d.startIndexMap.idxOf 0, List.idxOf_lt_length_iff.2 hm⟩ = ix2 p (0 : Fin 1) := by
      funext b
      match b with
      | ⟨0, _⟩ =>
        unfold GatherDims.siIdx
        rw [dif_neg (by rw [hivd]; simp)]
        unfold GatherDims.siCoord
        apply Fin.ext
        simp only [Fin.val_cast]
        rw [getElem_of_eq_singleton hbd]
        rfl
      | ⟨1, _⟩ =>
        unfold GatherDims.siIdx
        rw [dif_pos (by rw [hivd])]
        apply Fin.ext
        show List.idxOf (0 : Fin 2) d.startIndexMap = 0
        rw [hsim]; simp
    rw [hsi]
  | ⟨1, _⟩ =>
    -- the column axis: not start-indexed (start 0), the one kept axis, read off the result's offset axis
    apply Fin.ext
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [d.batchCoord_eq_zero _ _ (hb 1)]
    unfold GatherDims.start GatherDims.offCoord
    rw [dif_neg hm, dif_pos hk, getElem_of_eq_singleton hoff]
    simp only [Nat.add_zero, Nat.zero_add]
    rfl

/-- COLUMNS: a take along axis 1 at result element `(q, p)` is the table at (`q`, the clamped start column of position `p`). -/
theorem gather_cols {α : Type} {N C n w : Nat} (d : GatherDims ⟨2, ![C, N]⟩ ⟨2, ![n, 1]⟩ ⟨2, ![C, n]⟩)
    (hoff : d.offsetDims = [0]) (hcoll : d.collapsedSliceDims = [1]) (hob : d.operandBatchingDims = [])
    (hsim : d.startIndexMap = [1]) (hivd : d.indexVectorDim = 1)
    (x : (⟨2, ![C, N]⟩ : Shape).Idx → α) (idx : IVec ⟨2, ![n, 1]⟩ w) (q : Fin C) (p : Fin n) (hN : 0 < N) :
    Host.gather d x idx (ix2 q p) = x (ix2 q (⟨min (idx (ix2 p (0 : Fin 1))).toInt.toNat (N - 1), by omega⟩ : Fin N)) := by
  -- the operand index is the clamped start plus the batching coordinate plus the offset coordinate, axis by axis
  unfold Host.gather
  congr 1
  have hb : ∀ a : Fin 2, a ∉ d.operandBatchingDims := fun a => by rw [hob]; exact List.not_mem_nil
  -- the result's one batch axis is axis 1 (axis 0 is the offset axis)
  have hbd : d.batchDims = [1] := by
    show Shape.kept _ d.offsetDims = _
    rw [hoff]; rfl
  funext a
  match a with
  | ⟨0, _⟩ =>
    -- the row axis: not start-indexed (start 0), the one kept axis, read off the result's offset axis
    apply Fin.ext
    have hk : (0 : Fin 2) ∈ d.sKept := by rw [GatherDims.mem_sKept, hcoll, hob]; simp
    have hm : (0 : Fin 2) ∉ d.startIndexMap := by rw [hsim]; simp
    show d.start (ix2 q p) idx 0 + d.batchCoord (ix2 q p) 0 + d.offCoord (ix2 q p) 0 = q.val
    rw [d.batchCoord_eq_zero _ _ (hb 0)]
    unfold GatherDims.start GatherDims.offCoord
    rw [dif_neg hm, dif_pos hk, getElem_of_eq_singleton hoff]
    simp only [Nat.add_zero, Nat.zero_add]
    rfl
  | ⟨1, _⟩ =>
    -- the column axis: collapsed (no offset), start-indexed with slice size 1, so the start word clamped into [0, N - 1]
    apply Fin.ext
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 q p) idx 1 + d.batchCoord (ix2 q p) 1 + d.offCoord (ix2 q p) 1 = min _ (N - 1)
    rw [d.batchCoord_eq_zero _ _ (hb 1), d.offCoord_eq_zero _ _ hk]
    simp only [Nat.add_zero]
    unfold GatherDims.start
    rw [dif_pos hm]
    show min (idx _).toInt.toNat (N - d.sliceSizes 1) = _
    rw [hsl]
    -- the start word is read at (p, 0): p from the result's batch axis, 0 the one component of the index vector
    have hsi : d.siIdx (ix2 q p) ⟨d.startIndexMap.idxOf 1, List.idxOf_lt_length_iff.2 hm⟩ = ix2 p (0 : Fin 1) := by
      funext b
      match b with
      | ⟨0, _⟩ =>
        unfold GatherDims.siIdx
        rw [dif_neg (by rw [hivd]; simp)]
        unfold GatherDims.siCoord
        apply Fin.ext
        simp only [Fin.val_cast]
        rw [getElem_of_eq_singleton hbd]
        rfl
      | ⟨1, _⟩ =>
        unfold GatherDims.siIdx
        rw [dif_pos (by rw [hivd])]
        apply Fin.ext
        show List.idxOf (1 : Fin 2) d.startIndexMap = 0
        rw [hsim]; simp
    rw [hsi]

/-- A left fold by `and` from 1 over one-bit words that are all 1 stays 1. -/
theorem foldl_andi_one {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_one f hf l

/-- An `and`-reduction from 1 over words that are all 1 is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x hx _

end Cert.Lib.GatherRank2
-- ==== Proof.RefValue.lean ====
/-
  The reference's result, stage by stage, is the edge-feature function of the three arguments.
-/
import proofs.«420826_j65910568124748_3_alg».proof.Proof.Gen.ReferenceIdeal.Read
import proofs.«420826_j65910568124748_3_alg».proof.Proof.Spec
import proofs.«420826_j65910568124748_3_alg».proof.Proof.LibGatherRank2
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

/-- The wrapped destination words: the select of the stage is the specification's wrap. -/
theorem v4_eq (x2 : (⟨S8380416, .i32⟩ : BufTy).Contents (Elt Ideal)) (e : Fin 8380416) :
    val_main_v4 (F := Ideal) x2 (ix1 e) = Cert.EdgeFeat.wrap (x2 (ix1 e)) := by
  rw [val_main_v4_apply, val_main_v1_apply, val_main_v3_apply, val_main_v0_apply, val_main_v2_apply,
    val_main_c_apply, val_main_c_0_apply]
  rfl

/-- The wrapped source words. -/
theorem v11_eq (x1 : (⟨S8380416, .i32⟩ : BufTy).Contents (Elt Ideal)) (e : Fin 8380416) :
    val_main_v11 (F := Ideal) x1 (ix1 e) = Cert.EdgeFeat.wrap (x1 (ix1 e)) := by
  rw [val_main_v11_apply, val_main_v8_apply, val_main_v10_apply, val_main_v7_apply, val_main_v9_apply,
    val_main_c_1_apply, val_main_c_2_apply]
  rfl

/-- The column of destination start words. -/
theorem v5_eq (x2 : (⟨S8380416, .i32⟩ : BufTy).Contents (Elt Ideal)) (e : Fin 8380416) :
    val_main_v5 (F := Ideal) x2 (ix2 e (0 : Fin 1)) = Cert.EdgeFeat.wrap (x2 (ix1 e)) := by
  rw [val_main_v5_apply]
  have h : idx_main_v5 (ix2 e (0 : Fin 1)) = ix1 e := funext fun a => match a with | ⟨0, _⟩ => rfl
  rw [h]
  exact v4_eq x2 e

/-- The column of source start words. -/
theorem v12_eq (x1 : (⟨S8380416, .i32⟩ : BufTy).Contents (Elt Ideal)) (e : Fin 8380416) :
    val_main_v12 (F := Ideal) x1 (ix2 e (0 : Fin 1)) = Cert.EdgeFeat.wrap (x1 (ix1 e)) := by
  rw [val_main_v12_apply]
  have h : idx_main_v12 (ix2 e (0 : Fin 1)) = ix1 e := funext fun a => match a with | ⟨0, _⟩ => rfl
  rw [h]
  exact v11_eq x1 e

/-- The destination rows: the gather reads the table at the clamped wrapped destination word. -/
theorem v6_eq (x0 : (⟨S8192x3, .f32⟩ : BufTy).Contents (Elt Ideal)) (x2 : (⟨S8380416, .i32⟩ : BufTy).Contents (Elt Ideal))
    (e : Fin 8380416) (k : Fin 3) :
    val_main_v6 (F := Ideal) x0 x2 (ix2 e k) = x0 (ix2 (Cert.EdgeFeat.rowAt (Cert.EdgeFeat.wrap (x2 (ix1 e)))) k) := by
  unfold val_main_v6
  refine (Cert.Lib.GatherRank2.gather_rows gather_S8192x3_S8380416x1_S8380416x3_1_0_n_n_0_1_13 rfl rfl rfl rfl rfl
    x0 (val_main_v5 (F := Ideal) x2) e k (by decide)).trans ?_
  exact congrArg (fun w => x0 (ix2 (Cert.EdgeFeat.rowAt w) k)) (v5_eq x2 e)

/-- The source rows. -/
theorem v13_eq (x0 : (⟨S8192x3, .f32⟩ : BufTy).Contents (Elt Ideal)) (x1 : (⟨S8380416, .i32⟩ : BufTy).Contents (Elt Ideal))
    (e : Fin 8380416) (k : Fin 3) :
    val_main_v13 (F := Ideal) x0 x1 (ix2 e k) = x0 (ix2 (Cert.EdgeFeat.rowAt (Cert.EdgeFeat.wrap (x1 (ix1 e)))) k) := by
  unfold val_main_v13
  refine (Cert.Lib.GatherRank2.gather_rows gather_S8192x3_S8380416x1_S8380416x3_1_0_n_n_0_1_13 rfl rfl rfl rfl rfl
    x0 (val_main_v12 (F := Ideal) x1) e k (by decide)).trans ?_
  exact congrArg (fun w => x0 (ix2 (Cert.EdgeFeat.rowAt w) k)) (v12_eq x1 e)

/-- The difference vectors. -/
theorem v14_eq (x0 : (⟨S8192x3, .f32⟩ : BufTy).Contents (Elt Ideal)) (x1 x2 : (⟨S8380416, .i32⟩ : BufTy).Contents (Elt Ideal))
    (e : Fin 8380416) (k : Fin 3) :
    val_main_v14 (F := Ideal) x0 x1 x2 (ix2 e k) = Cert.EdgeFeat.vec x0 x1 x2 e k := by
  rw [val_main_v14_apply, v6_eq, v13_eq]
  rfl

/-- The sum of the squared components, first to second to third. -/
theorem sum_eq (x0 : (⟨S8192x3, .f32⟩ : BufTy).Contents (Elt Ideal)) (x1 x2 : (⟨S8380416, .i32⟩ : BufTy).Contents (Elt Ideal))
    (e : Fin 8380416) :
    val_main_call0_v1 (F := Ideal) x0 x1 x2 (ix1 e)
      = Cert.EdgeFeat.vec x0 x1 x2 e 0 * Cert.EdgeFeat.vec x0 x1 x2 e 0
        + Cert.EdgeFeat.vec x0 x1 x2 e 1 * Cert.EdgeFeat.vec x0 x1 x2 e 1
        + Cert.EdgeFeat.vec x0 x1 x2 e 2 * Cert.EdgeFeat.vec x0 x1 x2 e 2 := by
  have h : ∀ k : Fin 3, idx_main_call0_v1 (ix1 e) k = ix2 e k := fun k =>
    funext fun a => match a with | ⟨0, _⟩ => rfl | ⟨1, _⟩ => rfl
  rw [val_main_call0_v1_apply, val_main_call0_cst_apply, Ideal.ofBits_def, Ideal.ofBits_zero_f32, zero_add,
    Fin.sum_univ_three]
  simp only [h, val_main_call0_v0_apply, v14_eq]
  rfl

/-- The distances. -/
theorem v15_eq (x0 : (⟨S8192x3, .f32⟩ : BufTy).Contents (Elt Ideal)) (x1 x2 : (⟨S8380416, .i32⟩ : BufTy).Contents (Elt Ideal))
    (e : Fin 8380416) :
    val_main_v15 (F := Ideal) x0 x1 x2 (ix1 e) = Cert.EdgeFeat.norm3 (Cert.EdgeFeat.vec x0 x1 x2 e) := by
  rw [val_main_v15_apply, sum_eq]
  rfl

/-- The switch values. -/
theorem v25_eq (x0 : (⟨S8192x3, .f32⟩ : BufTy).Contents (Elt Ideal)) (x1 x2 : (⟨S8380416, .i32⟩ : BufTy).Contents (Elt Ideal))
    (e : Fin 8380416) :
    val_main_v25 (F := Ideal) x0 x1 x2 (ix1 e)
      = Cert.EdgeFeat.switchOf (Cert.EdgeFeat.norm3 (Cert.EdgeFeat.vec x0 x1 x2 e)) := by
  rw [val_main_v25_apply, val_main_v17_apply, val_main_v24_apply, val_main_v22_apply, val_main_v20_apply,
    val_main_v19_apply, val_main_v16_apply, val_main_v18_apply, val_main_v21_apply, val_main_v23_apply,
    val_main_call1_v1_apply, val_main_call1_v0_apply, val_main_cst_apply, val_main_cst_3_apply,
    val_main_cst_4_apply, val_main_cst_5_apply, val_main_cst_6_apply, v15_eq]
  rfl

/-- The distance column. -/
theorem v26_eq (x0 : (⟨S8192x3, .f32⟩ : BufTy).Contents (Elt Ideal)) (x1 x2 : (⟨S8380416, .i32⟩ : BufTy).Contents (Elt Ideal))
    (e : Fin 8380416) :
    val_main_v26 (F := Ideal) x0 x1 x2 (ix2 e (0 : Fin 1)) = Cert.EdgeFeat.norm3 (Cert.EdgeFeat.vec x0 x1 x2 e) := by
  rw [val_main_v26_apply]
  have h : idx_main_v26 (ix2 e (0 : Fin 1)) = ix1 e := funext fun a => match a with | ⟨0, _⟩ => rfl
  rw [h]
  exact v15_eq x0 x1 x2 e

/-- The switch column. -/
theorem v27_eq (x0 : (⟨S8192x3, .f32⟩ : BufTy).Contents (Elt Ideal)) (x1 x2 : (⟨S8380416, .i32⟩ : BufTy).Contents (Elt Ideal))
    (e : Fin 8380416) :
    val_main_v27 (F := Ideal) x0 x1 x2 (ix2 e (0 : Fin 1))
      = Cert.EdgeFeat.switchOf (Cert.EdgeFeat.norm3 (Cert.EdgeFeat.vec x0 x1 x2 e)) := by
  rw [val_main_v27_apply]
  have h : idx_main_v27 (ix2 e (0 : Fin 1)) = ix1 e := funext fun a => match a with | ⟨0, _⟩ => rfl
  rw [h]
  exact v25_eq x0 x1 x2 e

/-- Columns 0 to 2 of the concatenation are the difference vectors' columns. -/
theorem v28_low (x0 : (⟨S8192x3, .f32⟩ : BufTy).Contents (Elt Ideal)) (x1 x2 : (⟨S8380416, .i32⟩ : BufTy).Contents (Elt Ideal))
    (e : Fin 8380416) (k : Fin 3) (c : Fin 5) (hc : c.val = k.val) :
    val_main_v28 (F := Ideal) x0 x1 x2 (ix2 e c) = val_main_v14 (F := Ideal) x0 x1 x2 (ix2 e k) := by
  unfold val_main_v28
  refine concatenate_apply_piece (t := S8380416x5) (1 : Fin 2)
    [⟨S8380416x3, (val_main_v14 (F := Ideal) x0 x1 x2)⟩, ⟨S8380416x1, (val_main_v26 (F := Ideal) x0 x1 x2)⟩, ⟨S8380416x1, (val_main_v27 (F := Ideal) x0 x1 x2)⟩]
    concatenates_S8380416x3_S8380416x1_S8380416x1_S8380416x5_d1
    (ix2 e c) 0 (show (0 : Nat) < 3 by decide) S8380416x3 (val_main_v14 (F := Ideal) x0 x1 x2) rfl rfl 0 rfl
    (ix2 e k) (fun b hb => ?_) ?_
  · match b with
    | ⟨0, _⟩ => rfl
    | ⟨1, _⟩ => exact absurd rfl hb
  · show 0 + k.val = c.val
    omega

/-- Column 3 is the distance column. -/
theorem v28_three (x0 : (⟨S8192x3, .f32⟩ : BufTy).Contents (Elt Ideal)) (x1 x2 : (⟨S8380416, .i32⟩ : BufTy).Contents (Elt Ideal))
    (e : Fin 8380416) (c : Fin 5) (hc : c.val = 3) :
    val_main_v28 (F := Ideal) x0 x1 x2 (ix2 e c) = val_main_v26 (F := Ideal) x0 x1 x2 (ix2 e (0 : Fin 1)) := by
  unfold val_main_v28
  refine concatenate_apply_piece (t := S8380416x5) (1 : Fin 2)
    [⟨S8380416x3, (val_main_v14 (F := Ideal) x0 x1 x2)⟩, ⟨S8380416x1, (val_main_v26 (F := Ideal) x0 x1 x2)⟩, ⟨S8380416x1, (val_main_v27 (F := Ideal) x0 x1 x2)⟩]
    concatenates_S8380416x3_S8380416x1_S8380416x1_S8380416x5_d1
    (ix2 e c) 1 (show (1 : Nat) < 3 by decide) S8380416x1 (val_main_v26 (F := Ideal) x0 x1 x2) rfl rfl 3 rfl
    (ix2 e (0 : Fin 1)) (fun b hb => ?_) ?_
  · match b with
    | ⟨0, _⟩ => rfl
    | ⟨1, _⟩ => exact absurd rfl hb
  · show 3 + 0 = c.val
    omega

/-- Column 4 is the switch column. -/
theorem v28_four (x0 : (⟨S8192x3, .f32⟩ : BufTy).Contents (Elt Ideal)) (x1 x2 : (⟨S8380416, .i32⟩ : BufTy).Contents (Elt Ideal))
    (e : Fin 8380416) (c : Fin 5) (hc : c.val = 4) :
    val_main_v28 (F := Ideal) x0 x1 x2 (ix2 e c) = val_main_v27 (F := Ideal) x0 x1 x2 (ix2 e (0 : Fin 1)) := by
  unfold val_main_v28
  refine concatenate_apply_piece (t := S8380416x5) (1 : Fin 2)
    [⟨S8380416x3, (val_main_v14 (F := Ideal) x0 x1 x2)⟩, ⟨S8380416x1, (val_main_v26 (F := Ideal) x0 x1 x2)⟩, ⟨S8380416x1, (val_main_v27 (F := Ideal) x0 x1 x2)⟩]
    concatenates_S8380416x3_S8380416x1_S8380416x1_S8380416x5_d1
    (ix2 e c) 2 (show (2 : Nat) < 3 by decide) S8380416x1 (val_main_v27 (F := Ideal) x0 x1 x2) rfl rfl 4 rfl
    (ix2 e (0 : Fin 1)) (fun b hb => ?_) ?_
  · match b with
    | ⟨0, _⟩ => rfl
    | ⟨1, _⟩ => exact absurd rfl hb
  · show 4 + 0 = c.val
    omega

/-- The reference's last stage (the concatenation of the difference vectors, the distances and the switch values) is `feat` of
    the coordinate table `x0`, the source indices `x1` and the destination indices `x2`. -/
theorem ref_eq (x0 : (⟨S8192x3, .f32⟩ : BufTy).Contents (Elt Ideal)) (x1 x2 : (⟨S8380416, .i32⟩ : BufTy).Contents (Elt Ideal)) :
    val_main_v28 (F := Ideal) x0 x1 x2 = Cert.EdgeFeat.feat x0 x1 x2 := by
  funext j
  obtain ⟨e, c, rfl⟩ : ∃ (e : Fin 8380416) (c : Fin 5), j = ix2 e c := ⟨j 0, j 1, eq_ix2 j⟩
  rw [Cert.EdgeFeat.feat_ix2]
  match c with
  | ⟨0, h⟩ => rw [v28_low x0 x1 x2 e 0 ⟨0, h⟩ rfl, v14_eq]; rfl
  | ⟨1, h⟩ => rw [v28_low x0 x1 x2 e 1 ⟨1, h⟩ rfl, v14_eq]; rfl
  | ⟨2, h⟩ => rw [v28_low x0 x1 x2 e 2 ⟨2, h⟩ rfl, v14_eq]; rfl
  | ⟨3, h⟩ => rw [v28_three x0 x1 x2 e ⟨3, h⟩ rfl, v26_eq]; rfl
  | ⟨4, h⟩ => rw [v28_four x0 x1 x2 e ⟨4, h⟩ rfl, v27_eq]; rfl

end Cert.ReferenceIdeal.RefValue

end
-- ==== Proof.Layout.lean ====
/-
  Edge `e` of the 8380416 = 93 · 88 · 1024 edges sits, in the tiled layout, in tile `e / 90112`, sublane `(e / 1024) mod 88`,
  lane `e mod 1024`; a reshape between `[n, 8380416]` and `[n, 93, 88, 1024]` keeps the row-major position, so it carries
  `(k, e)` to `(k, tile e, sublane e, lane e)` and back.
-/
import Idealize.ShloMosaic.Lib.Pipeline.Value
import Idealize.ShloMosaic.Lib.ValueIdx

namespace Cert.EdgeFeat.Layout

open Idealize.ShloMosaic Idealize.ShloMosaic.ValueIdx

/-- The tile of an edge. -/
def tile (e : Fin 8380416) : Fin 93 := ⟨e.val / 90112, by have := e.isLt; omega⟩
/-- Its sublane in the tile. -/
def sublane (e : Fin 8380416) : Fin 88 := ⟨(e.val / 1024) % 88, by omega⟩
/-- Its lane. -/
def lane (e : Fin 8380416) : Fin 1024 := ⟨e.val % 1024, by omega⟩

/-- Flat to tiled: the tiled array at an edge's tile, sublane and lane is the flat array at the edge. -/
theorem tiled_apply {α : Type} {n : Nat} (x : (⟨2, ![n, 8380416]⟩ : Shape).Idx → α)
    (h : (⟨2, ![n, 8380416]⟩ : Shape).ShapeCasts ⟨4, ![n, 93, 88, 1024]⟩) (k : Fin n) (e : Fin 8380416) :
    shapeCast ⟨4, ![n, 93, 88, 1024]⟩ x h (ix4 k (tile e) (sublane e) (lane e)) = x (ix2 k e) :=
  shapeCast_apply x h _ _ (by
    rw [Shape.rowMajor_val_two, Shape.rowMajor_val_four]
    show k.val * 8380416 + e.val = ((k.val * 93 + e.val / 90112) * 88 + (e.val / 1024) % 88) * 1024 + e.val % 1024
    omega)

/-- Tiled to flat: the flat array at an edge is the tiled array at its tile, sublane and lane. -/
theorem flat_apply {α : Type} {n : Nat} (y : (⟨4, ![n, 93, 88, 1024]⟩ : Shape).Idx → α)
    (h : (⟨4, ![n, 93, 88, 1024]⟩ : Shape).ShapeCasts ⟨2, ![n, 8380416]⟩) (k : Fin n) (e : Fin 8380416) :
    shapeCast ⟨2, ![n, 8380416]⟩ y h (ix2 k e) = y (ix4 k (tile e) (sublane e) (lane e)) :=
  shapeCast_apply y h _ _ (by
    rw [Shape.rowMajor_val_two, Shape.rowMajor_val_four]
    show ((k.val * 93 + e.val / 90112) * 88 + (e.val / 1024) % 88) * 1024 + e.val % 1024 = k.val * 8380416 + e.val
    omega)

end Cert.EdgeFeat.Layout
-- ==== Proof.KHost.lean ====
/-
  The two operand arrays as the region finds them. Before the region the program transposes the coordinate table to three
  rows of 8192 columns, takes columns of it at the source and at the destination index words (a negative word counted from
  the end; a word still outside `[0, 8191]` after that yields a fill value instead of a column), and reshapes each
  `[3, 8380416]` result to `[3, 93, 88, 1024]`. Where every index word lies in `[-8192, 8192)` no fill value appears, and
  element `(k, e)` of a take is the table's coordinate `k` of the row the wrapped word names.
-/
import proofs.«420826_j65910568124748_3_alg».proof.Proof.Gen.KernelIdeal.Frame
import proofs.«420826_j65910568124748_3_alg».proof.Proof.Spec
import proofs.«420826_j65910568124748_3_alg».proof.Proof.LibGatherRank2
import Idealize.ShloMosaic.Lib.StableHlo.Run
import Idealize.ShloMosaic.Lib.Pipeline.Value

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The index words with the negative ones counted from the table's end. -/
def wrapped (idx : IVec S8380416 32) : IVec S8380416 32 :=
  select (cmpi .slt idx (broadcastInDim S8380416 ![] bcast_S_S8380416 (constantI S_ 32 0#32)))
    (addi idx (broadcastInDim S8380416 ![] bcast_S_S8380416 (constantI S_ 32 8192#32))) idx

/-- The same as a column of start indices. -/
def startCol (idx : IVec S8380416 32) : IVec S8380416x1 32 :=
  broadcastInDim S8380416x1 ![0] bcast_S8380416_S8380416x1_0 (wrapped idx)

/-- Per position: is the wrapped word in `[0, 8191]`? -/
def inTable (idx : IVec S8380416 32) : IVec S8380416 1 :=
  Host.reduce IntOp.andi
    (andi (cmpi .sge (startCol idx) (broadcastInDim S8380416x1 ![] bcast_S_S8380416x1 (constantI S_ 32 0#32)))
      (cmpi .sle (startCol idx) (broadcastInDim S8380416x1 ![0, 1] bcast_S1x1_S8380416x1_0_1
        (broadcastInDim S1x1 ![1] bcast_S1_S1x1_1 (constantI S1 32 8191#32)))))
    (constantI S_ 1 1#1) reducesTo_S8380416x1_S8380416_d1 h_S_

/-- The take of columns of a three-row table at index words, with a fill value where a word is out of the table. -/
def takeCols (table : FVec F S3x8192 .f32) (idx : IVec S8380416 32) : FVec F S3x8380416 .f32 :=
  select (broadcastInDim S3x8380416 ![1] bcast_S8380416_S3x8380416_1 (inTable idx))
    (Host.gather gather_S3x8192_S8380416x1_S3x8380416_0_1_n_n_1_1_31 table (startCol idx))
    (broadcastInDim S3x8380416 ![] bcast_S_S3x8380416 (constant S_ .f32 0x7FC00000#32))

/-! ## A take read at an element, where every index word is in range -/

/-- The wrapped words, position by position. -/
theorem wrapped_apply (idx : IVec S8380416 32) (i : S8380416.Idx) : wrapped idx i = Cert.EdgeFeat.wrap (idx i) := rfl

/-- The start column at any of its positions is the wrapped word of that position. -/
theorem startCol_apply (idx : IVec S8380416 32) (i : S8380416x1.Idx) :
    startCol idx i = Cert.EdgeFeat.wrap (idx (ix1 (⟨(i 0).val, (i 0).isLt⟩ : Fin 8380416))) := by
  unfold startCol
  refine (broadcastInDim_apply _ bcast_S8380416_S8380416x1_0 (wrapped idx) i (ix1 (⟨(i 0).val, (i 0).isLt⟩ : Fin 8380416)) (fun a => ?_)).trans
    (wrapped_apply idx _)
  match a with
  | ⟨0, _⟩ => show (i 0).val = if (8380416 : Nat) = 1 then 0 else (i 0).val; rw [if_neg (by decide)]

/-- With every word in `[-8192, 8192)` every wrapped word is in the table. -/
theorem inTable_one (idx : IVec S8380416 32)
    (hr : ∀ i : S8380416.Idx, IntOp.cmpi .sge (idx i) 4294959104#32 = 1#1 ∧ IntOp.cmpi .slt (idx i) 8192#32 = 1#1)
    (j : S8380416.Idx) : inTable idx j = 1#1 := by
  unfold inTable
  refine Cert.Lib.GatherRank2.reduce_andi_of_all _ _ _ _ j rfl (fun i => ?_)
  show IntOp.andi (IntOp.cmpi .sge (startCol idx i) 0#32) (IntOp.cmpi .sle (startCol idx i) 8191#32) = 1#1
  rw [startCol_apply idx i]
  exact Cert.EdgeFeat.wrap_inRange _ (hr _).1 (hr _).2

/-- Then element `(k, e)` of the take is the table's row `k` at the column the wrapped word `e` names: no fill value. -/
theorem takeCols_apply (table : FVec F S3x8192 .f32) (idx : IVec S8380416 32)
    (hr : ∀ i : S8380416.Idx, IntOp.cmpi .sge (idx i) 4294959104#32 = 1#1 ∧ IntOp.cmpi .slt (idx i) 8192#32 = 1#1)
    (k : Fin 3) (e : Fin 8380416) :
    takeCols table idx (ix2 k e) = table (ix2 k (Cert.EdgeFeat.rowAt (Cert.EdgeFeat.wrap (idx (ix1 e))))) := by
  unfold takeCols
  show Scalar.select (broadcastInDim S3x8380416 ![1] bcast_S8380416_S3x8380416_1 (inTable idx) (ix2 k e))
      (Host.gather gather_S3x8192_S8380416x1_S3x8380416_0_1_n_n_1_1_31 table (startCol idx) (ix2 k e)) _ = _
  have hm : broadcastInDim S3x8380416 ![1] bcast_S8380416_S3x8380416_1 (inTable idx) (ix2 k e) = 1#1 :=
    (broadcastInDim_apply _ bcast_S8380416_S3x8380416_1 (inTable idx) (ix2 k e) (ix1 e) (fun a => by
      match a with
      | ⟨0, _⟩ => show e.val = if (8380416 : Nat) = 1 then 0 else e.val; rw [if_neg (by decide)])).trans (inTable_one idx hr (ix1 e))
  rw [hm, select_one]
  refine (Cert.Lib.GatherRank2.gather_cols gather_S3x8192_S8380416x1_S3x8380416_0_1_n_n_1_1_31 rfl rfl rfl rfl rfl table (startCol idx) k e
    (by decide)).trans ?_
  refine congrArg (fun r : Fin 8192 => table (ix2 k r)) (Fin.ext ?_)
  show min (startCol idx (ix2 e (0 : Fin 1))).toInt.toNat (8192 - 1) = min (Cert.EdgeFeat.wrap (idx (ix1 e))).toInt.toNat (8192 - 1)
  rw [startCol_apply idx (ix2 e (0 : Fin 1))]

/-- The transposed table at `(k, r)` is the table at `(r, k)`. -/
theorem transposed_apply (coords : FVec F S8192x3 .f32) (k : Fin 3) (r : Fin 8192) :
    transpose S3x8192 [1, 0] coords transposes_S8192x3_S3x8192_1_0 (ix2 k r) = coords (ix2 r k) :=
  transpose_apply [1, 0] coords transposes_S8192x3_S3x8192_1_0 (ix2 k r) (ix2 r k) (fun b => by
    match b with
    | ⟨0, _⟩ => rfl
    | ⟨1, _⟩ => rfl)

-- Two `and`-reductions, or two gathers, are equal as soon as their operands are: nothing below depends on what either computes.
attribute [local irreducible] Host.reduce Host.gather

/-! ### The take at the source index words, piece by piece over any buffer contents `W` -/

/-- Its first seven operations leave the wrapped words. -/
theorem src_wrap (W : Valuation τ sig (Elt F)) :
    (StableHlo.after ((hostOps0_1 (F := F)).take 7) W (Proc.devRef .tc main_call0_v4) : IVec S8380416 32) = wrapped (W (Proc.devRef .tc main_arg1)) := by
  simp only [hostOps0_1, List.take]
  after_results_simp
  rfl
/-- They leave the transposed table alone. -/
theorem src_wrap_table (W : Valuation τ sig (Elt F)) :
    StableHlo.after ((hostOps0_1 (F := F)).take 7) W (Proc.devRef .tc main_v0) = W (Proc.devRef .tc main_v0) := by
  simp only [hostOps0_1, List.take]
  after_results_simp

/-- The next eleven make the start column of the wrapped words, -/
theorem src_col (W : Valuation τ sig (Elt F)) :
    (StableHlo.after (((hostOps0_1 (F := F)).drop 7).take 11) W (Proc.devRef .tc main_call0_v5) : IVec S8380416x1 32)
      = broadcastInDim S8380416x1 ![0] bcast_S8380416_S8380416x1_0 (W (Proc.devRef .tc main_call0_v4)) := by
  simp only [hostOps0_1, List.take, List.drop]
  after_results_simp
  rfl
/-- test each against the table's range, -/
theorem src_ok (W : Valuation τ sig (Elt F)) :
    (StableHlo.after (((hostOps0_1 (F := F)).drop 7).take 11) W (Proc.devRef .tc main_call0_v12) : IVec S8380416 1)
      = Host.reduce IntOp.andi
          (andi (cmpi .sge (broadcastInDim S8380416x1 ![0] bcast_S8380416_S8380416x1_0 (W (Proc.devRef .tc main_call0_v4)))
              (broadcastInDim S8380416x1 ![] bcast_S_S8380416x1 (constantI S_ 32 0#32)))
            (cmpi .sle (broadcastInDim S8380416x1 ![0] bcast_S8380416_S8380416x1_0 (W (Proc.devRef .tc main_call0_v4)))
              (broadcastInDim S8380416x1 ![0, 1] bcast_S1x1_S8380416x1_0_1
                (broadcastInDim S1x1 ![1] bcast_S1_S1x1_1 (constantI S1 32 8191#32)))))
          (constantI S_ 1 1#1) reducesTo_S8380416x1_S8380416_d1 h_S_ := by
  simp only [hostOps0_1, List.take, List.drop]
  after_results_simp
  rfl
/-- and leave the transposed table alone. -/
theorem src_col_table (W : Valuation τ sig (Elt F)) :
    StableHlo.after (((hostOps0_1 (F := F)).drop 7).take 11) W (Proc.devRef .tc main_v0) = W (Proc.devRef .tc main_v0) := by
  simp only [hostOps0_1, List.take, List.drop]
  after_results_simp

/-- The last five gather the columns and put the fill value where the test failed. -/
theorem src_fill (W : Valuation τ sig (Elt F)) :
    (StableHlo.after ((hostOps0_1 (F := F)).drop 18) W (Proc.devRef .tc main_v1) : FVec F S3x8380416 .f32)
      = select (broadcastInDim S3x8380416 ![1] bcast_S8380416_S3x8380416_1 (W (Proc.devRef .tc main_call0_v12)))
          (Host.gather gather_S3x8192_S8380416x1_S3x8380416_0_1_n_n_1_1_31 (W (Proc.devRef .tc main_v0)) (W (Proc.devRef .tc main_call0_v5)))
          (broadcastInDim S3x8380416 ![] bcast_S_S3x8380416 (constant S_ .f32 0x7FC00000#32)) := by
  simp only [hostOps0_1, List.drop]
  after_results_simp
  rfl

/-- The twenty-three together: the take of the table's columns at the index words. -/
theorem src_take (W : Valuation τ sig (Elt F)) :
    (StableHlo.after (hostOps0_1 (F := F)) W (Proc.devRef .tc main_v1) : FVec F S3x8380416 .f32)
      = takeCols (W (Proc.devRef .tc main_v0)) (W (Proc.devRef .tc main_arg1)) := by
  have hsplit : (hostOps0_1 (F := F)) = (hostOps0_1 (F := F)).take 7 ++ (((hostOps0_1 (F := F)).drop 7).take 11 ++ (hostOps0_1 (F := F)).drop 18) := rfl
  rw [hsplit, StableHlo.after_append, StableHlo.after_append, src_fill, src_ok, src_col, src_col_table, src_wrap, src_wrap_table]
  rfl

/-! ### The take at the destination index words, piece by piece over any buffer contents `W` -/

/-- Its first seven operations leave the wrapped words. -/
theorem dst_wrap (W : Valuation τ sig (Elt F)) :
    (StableHlo.after ((hostOps0_2 (F := F)).take 7) W (Proc.devRef .tc main_call1_v4) : IVec S8380416 32) = wrapped (W (Proc.devRef .tc main_arg2)) := by
  simp only [hostOps0_2, List.take]
  after_results_simp
  rfl
/-- They leave the transposed table alone. -/
theorem dst_wrap_table (W : Valuation τ sig (Elt F)) :
    StableHlo.after ((hostOps0_2 (F := F)).take 7) W (Proc.devRef .tc main_v0) = W (Proc.devRef .tc main_v0) := by
  simp only [hostOps0_2, List.take]
  after_results_simp

/-- The next eleven make the start column of the wrapped words, -/
theorem dst_col (W : Valuation τ sig (Elt F)) :
    (StableHlo.after (((hostOps0_2 (F := F)).drop 7).take 11) W (Proc.devRef .tc main_call1_v5) : IVec S8380416x1 32)
      = broadcastInDim S8380416x1 ![0] bcast_S8380416_S8380416x1_0 (W (Proc.devRef .tc main_call1_v4)) := by
  simp only [hostOps0_2, List.take, List.drop]
  after_results_simp
  rfl
/-- test each against the table's range, -/
theorem dst_ok (W : Valuation τ sig (Elt F)) :
    (StableHlo.after (((hostOps0_2 (F := F)).drop 7).take 11) W (Proc.devRef .tc main_call1_v12) : IVec S8380416 1)
      = Host.reduce IntOp.andi
          (andi (cmpi .sge (broadcastInDim S8380416x1 ![0] bcast_S8380416_S8380416x1_0 (W (Proc.devRef .tc main_call1_v4)))
              (broadcastInDim S8380416x1 ![] bcast_S_S8380416x1 (constantI S_ 32 0#32)))
            (cmpi .sle (broadcastInDim S8380416x1 ![0] bcast_S8380416_S8380416x1_0 (W (Proc.devRef .tc main_call1_v4)))
              (broadcastInDim S8380416x1 ![0, 1] bcast_S1x1_S8380416x1_0_1
                (broadcastInDim S1x1 ![1] bcast_S1_S1x1_1 (constantI S1 32 8191#32)))))
          (constantI S_ 1 1#1) reducesTo_S8380416x1_S8380416_d1 h_S_ := by
  simp only [hostOps0_2, List.take, List.drop]
  after_results_simp
  rfl
/-- and leave the transposed table alone. -/
theorem dst_col_table (W : Valuation τ sig (Elt F)) :
    StableHlo.after (((hostOps0_2 (F := F)).drop 7).take 11) W (Proc.devRef .tc main_v0) = W (Proc.devRef .tc main_v0) := by
  simp only [hostOps0_2, List.take, List.drop]
  after_results_simp

/-- The last five gather the columns and put the fill value where the test failed. -/
theorem dst_fill (W : Valuation τ sig (Elt F)) :
    (StableHlo.after ((hostOps0_2 (F := F)).drop 18) W (Proc.devRef .tc main_v2) : FVec F S3x8380416 .f32)
      = select (broadcastInDim S3x8380416 ![1] bcast_S8380416_S3x8380416_1 (W (Proc.devRef .tc main_call1_v12)))
          (Host.gather gather_S3x8192_S8380416x1_S3x8380416_0_1_n_n_1_1_31 (W (Proc.devRef .tc main_v0)) (W (Proc.devRef .tc main_call1_v5)))
          (broadcastInDim S3x8380416 ![] bcast_S_S3x8380416 (constant S_ .f32 0x7FC00000#32)) := by
  simp only [hostOps0_2, List.drop]
  after_results_simp
  rfl

/-- The twenty-three together: the take of the table's columns at the index words. -/
theorem dst_take (W : Valuation τ sig (Elt F)) :
    (StableHlo.after (hostOps0_2 (F := F)) W (Proc.devRef .tc main_v2) : FVec F S3x8380416 .f32)
      = takeCols (W (Proc.devRef .tc main_v0)) (W (Proc.devRef .tc main_arg2)) := by
  have hsplit : (hostOps0_2 (F := F)) = (hostOps0_2 (F := F)).take 7 ++ (((hostOps0_2 (F := F)).drop 7).take 11 ++ (hostOps0_2 (F := F)).drop 18) := rfl
  rw [hsplit, StableHlo.after_append, StableHlo.after_append, dst_fill, dst_ok, dst_col, dst_col_table, dst_wrap, dst_wrap_table]
  rfl

/-! ### The stretches around the two takes -/

/-- The transpose before them, -/
theorem table_made (W : Valuation τ sig (Elt F)) :
    (StableHlo.after (hostOps0 (F := F)) W (Proc.devRef .tc main_v0) : FVec F S3x8192 .f32)
      = transpose S3x8192 [1, 0] (W (Proc.devRef .tc main_arg0)) transposes_S8192x3_S3x8192_1_0 := by
  simp only [hostOps0]
  after_results_simp
/-- which leaves the index arrays alone; -/
theorem table_made_src (W : Valuation τ sig (Elt F)) :
    StableHlo.after (hostOps0 (F := F)) W (Proc.devRef .tc main_arg1) = W (Proc.devRef .tc main_arg1) := by
  simp only [hostOps0]
  after_results_simp
theorem table_made_dst (W : Valuation τ sig (Elt F)) :
    StableHlo.after (hostOps0 (F := F)) W (Proc.devRef .tc main_arg2) = W (Proc.devRef .tc main_arg2) := by
  simp only [hostOps0]
  after_results_simp

/-- the first take leaves the table and the destination words alone, -/
theorem src_keeps_table (W : Valuation τ sig (Elt F)) :
    StableHlo.after (hostOps0_1 (F := F)) W (Proc.devRef .tc main_v0) = W (Proc.devRef .tc main_v0) := by
  simp only [hostOps0_1]
  after_results_simp
theorem src_keeps_dst (W : Valuation τ sig (Elt F)) :
    StableHlo.after (hostOps0_1 (F := F)) W (Proc.devRef .tc main_arg2) = W (Proc.devRef .tc main_arg2) := by
  simp only [hostOps0_1]
  after_results_simp
/-- the second leaves the first's result alone; -/
theorem dst_keeps_src (W : Valuation τ sig (Elt F)) :
    StableHlo.after (hostOps0_2 (F := F)) W (Proc.devRef .tc main_v1) = W (Proc.devRef .tc main_v1) := by
  simp only [hostOps0_2]
  after_results_simp

/-- and the two reshapes after them. -/
theorem src_tiled (W : Valuation τ sig (Elt F)) :
    (StableHlo.after (hostOps0_3 (F := F)) W (Proc.devRef .tc main_v3) : FVec F S3x93x88x1024 .f32)
      = shapeCast S3x93x88x1024 (W (Proc.devRef .tc main_v1)) shapeCasts_S3x8380416_S3x93x88x1024 := by
  simp only [hostOps0_3]
  after_results_simp
  rfl
theorem dst_tiled (W : Valuation τ sig (Elt F)) :
    (StableHlo.after (hostOps0_3 (F := F)) W (Proc.devRef .tc main_v4) : FVec F S3x93x88x1024 .f32)
      = shapeCast S3x93x88x1024 (W (Proc.devRef .tc main_v2)) shapeCasts_S3x8380416_S3x93x88x1024 := by
  simp only [hostOps0_3]
  after_results_simp
  rfl

variable (m : (ℓ : Loc nD τ sig) → Buf (Elt F) ℓ)

/-- The first operand array at region entry: the take at the source index words, reshaped. -/
theorem V_src (c : Dev nD) : (V m c main_v3 : FVec F S3x93x88x1024 .f32)
    = shapeCast S3x93x88x1024
        (takeCols (transpose S3x8192 [1, 0] (m (c, Proc.devRef .tc main_arg0)) transposes_S8192x3_S3x8192_1_0) (m (c, Proc.devRef .tc main_arg1)))
        shapeCasts_S3x8380416_S3x93x88x1024 := by
  dsimp only [Gen.V, Gen.V0]
  simp only [List.flatten_cons, List.flatten_nil, List.append_nil, StableHlo.after_append]
  rw [src_tiled, dst_keeps_src, src_take, table_made, table_made_src]

/-- The second operand array at region entry: the take at the destination index words, reshaped. -/
theorem V_dst (c : Dev nD) : (V m c main_v4 : FVec F S3x93x88x1024 .f32)
    = shapeCast S3x93x88x1024
        (takeCols (transpose S3x8192 [1, 0] (m (c, Proc.devRef .tc main_arg0)) transposes_S8192x3_S3x8192_1_0) (m (c, Proc.devRef .tc main_arg2)))
        shapeCasts_S3x8380416_S3x93x88x1024 := by
  dsimp only [Gen.V, Gen.V0]
  simp only [List.flatten_cons, List.flatten_nil, List.append_nil, StableHlo.after_append]
  rw [dst_tiled, dst_take, src_keeps_table, src_keeps_dst, table_made, table_made_dst]

end Cert.KernelIdeal.HostValue

end
-- ==== Proof.KBlock.lean ====
/-
  What the kernel body leaves in its output block, read at an element: plane `c`, sublane `s`, lane `l` of the block is
  feature `c` of the difference of the two input blocks' three planes at `(s, l)`.
-/
import proofs.«420826_j65910568124748_3_alg».proof.Proof.Gen.KernelIdeal.Frame
import proofs.«420826_j65910568124748_3_alg».proof.Proof.Spec
import Idealize.ShloMosaic.Lib.Pipeline.Value
import Idealize.ShloMosaic.Lib.ValueLayout

noncomputable section

namespace Cert.KernelIdeal.BlockValue

open Cert.KernelIdeal Cert.KernelIdeal.Gen Idealize.ShloMosaic Idealize.ShloMosaic.ValueIdx

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp only [Nat.zero_mul, Nat.zero_add])

/-- A difference payload at `(s, l)`: destination plane less source plane. -/
theorem pay6_apply (a b : Vec Ideal S1x1x88x1024 .f32) (s : Fin 88) (l : Fin 1024) :
    k0_pay6 (F := Ideal) a b (ix2 s l) = b (ix4 (0 : Fin 1) (0 : Fin 1) s l) - a (ix4 (0 : Fin 1) (0 : Fin 1) s l) := by
  show shapeCast S88x1024 b _ (ix2 s l) - shapeCast S88x1024 a _ (ix2 s l) = _
  rw [shapeCast_11ab_ab_apply, shapeCast_11ab_ab_apply]

theorem pay7_apply (a b : Vec Ideal S1x1x88x1024 .f32) (s : Fin 88) (l : Fin 1024) :
    k0_pay7 (F := Ideal) a b (ix2 s l) = b (ix4 (0 : Fin 1) (0 : Fin 1) s l) - a (ix4 (0 : Fin 1) (0 : Fin 1) s l) := by
  show shapeCast S88x1024 b _ (ix2 s l) - shapeCast S88x1024 a _ (ix2 s l) = _
  rw [shapeCast_11ab_ab_apply, shapeCast_11ab_ab_apply]

theorem pay8_apply (a b : Vec Ideal S1x1x88x1024 .f32) (s : Fin 88) (l : Fin 1024) :
    k0_pay8 (F := Ideal) a b (ix2 s l) = b (ix4 (0 : Fin 1) (0 : Fin 1) s l) - a (ix4 (0 : Fin 1) (0 : Fin 1) s l) := by
  show shapeCast S88x1024 b _ (ix2 s l) - shapeCast S88x1024 a _ (ix2 s l) = _
  rw [shapeCast_11ab_ab_apply, shapeCast_11ab_ab_apply]

/-- The distance payload at `(s, l)`: the root of the sum of the squared plane differences. -/
theorem pay9_apply (v0 v2 v4 v6 v8 v10 : Vec Ideal S1x1x88x1024 .f32) (s : Fin 88) (l : Fin 1024) :
    k0_pay9 (F := Ideal) v0 v2 v4 v6 v8 v10 (ix2 s l)
      = Ideal.sqrt
          ((v6 (ix4 (0 : Fin 1) (0 : Fin 1) s l) - v0 (ix4 (0 : Fin 1) (0 : Fin 1) s l))
              * (v6 (ix4 (0 : Fin 1) (0 : Fin 1) s l) - v0 (ix4 (0 : Fin 1) (0 : Fin 1) s l))
            + (v8 (ix4 (0 : Fin 1) (0 : Fin 1) s l) - v2 (ix4 (0 : Fin 1) (0 : Fin 1) s l))
              * (v8 (ix4 (0 : Fin 1) (0 : Fin 1) s l) - v2 (ix4 (0 : Fin 1) (0 : Fin 1) s l))
            + (v10 (ix4 (0 : Fin 1) (0 : Fin 1) s l) - v4 (ix4 (0 : Fin 1) (0 : Fin 1) s l))
              * (v10 (ix4 (0 : Fin 1) (0 : Fin 1) s l) - v4 (ix4 (0 : Fin 1) (0 : Fin 1) s l))) := by
  show Ideal.sqrt (k0_pay6 (F := Ideal) v0 v6 (ix2 s l) * k0_pay6 (F := Ideal) v0 v6 (ix2 s l)
      + k0_pay7 (F := Ideal) v2 v8 (ix2 s l) * k0_pay7 (F := Ideal) v2 v8 (ix2 s l)
      + k0_pay8 (F := Ideal) v4 v10 (ix2 s l) * k0_pay8 (F := Ideal) v4 v10 (ix2 s l)) = _
  rw [pay6_apply, pay7_apply, pay8_apply]

/-- Plane `0` of an input block, loaded, at `(u, v, s, l)`. -/
theorem ld0_apply (x : Vec Ideal S3x1x88x1024 .f32) (u v : Fin 1) (s : Fin 88) (l : Fin 1024) :
    View.ld x r0_0 (ix4 u v s l) = x (ix4 (0 : Fin 3) (0 : Fin 1) s l) := by
  show x (r0_0.idx (ix4 u v s l)) = _
  congr 1
  funext a
  match a with
  | ⟨0, _⟩ => exact Fin.ext (by show 0 + 1 * u.val = 0; omega)
  | ⟨1, _⟩ => exact Fin.ext (by show 0 + 1 * v.val = 0; omega)
  | ⟨2, _⟩ => exact Fin.ext (by show 0 + 1 * s.val = s.val; omega)
  | ⟨3, _⟩ => exact Fin.ext (by show 0 + 1 * l.val = l.val; omega)

theorem ld1_apply (x : Vec Ideal S3x1x88x1024 .f32) (u v : Fin 1) (s : Fin 88) (l : Fin 1024) :
    View.ld x r0_1 (ix4 u v s l) = x (ix4 (1 : Fin 3) (0 : Fin 1) s l) := by
  show x (r0_1.idx (ix4 u v s l)) = _
  congr 1
  funext a
  match a with
  | ⟨0, _⟩ => exact Fin.ext (by show 1 + 1 * u.val = 1; omega)
  | ⟨1, _⟩ => exact Fin.ext (by show 0 + 1 * v.val = 0; omega)
  | ⟨2, _⟩ => exact Fin.ext (by show 0 + 1 * s.val = s.val; omega)
  | ⟨3, _⟩ => exact Fin.ext (by show 0 + 1 * l.val = l.val; omega)

theorem ld2_apply (x : Vec Ideal S3x1x88x1024 .f32) (u v : Fin 1) (s : Fin 88) (l : Fin 1024) :
    View.ld x r0_2 (ix4 u v s l) = x (ix4 (2 : Fin 3) (0 : Fin 1) s l) := by
  show x (r0_2.idx (ix4 u v s l)) = _
  congr 1
  funext a
  match a with
  | ⟨0, _⟩ => exact Fin.ext (by show 2 + 1 * u.val = 2; omega)
  | ⟨1, _⟩ => exact Fin.ext (by show 0 + 1 * v.val = 0; omega)
  | ⟨2, _⟩ => exact Fin.ext (by show 0 + 1 * s.val = s.val; omega)
  | ⟨3, _⟩ => exact Fin.ext (by show 0 + 1 * l.val = l.val; omega)

/-- The difference vector of the two blocks at `(s, l)`: destination less source, plane by plane. -/
def dvec (x0 x1 : Vec Ideal S3x1x88x1024 .f32) (s : Fin 88) (l : Fin 1024) : Fin 3 → EReal :=
  fun k => x1 (ix4 k (0 : Fin 1) s l) - x0 (ix4 k (0 : Fin 1) s l)

/-- The distance payload over the loaded planes is the norm of the difference vector. -/
theorem norm_apply (x0 x1 : Vec Ideal S3x1x88x1024 .f32) (s : Fin 88) (l : Fin 1024) :
    k0_pay9 (F := Ideal) (View.ld x0 r0_0) (View.ld x0 r0_1) (View.ld x0 r0_2) (View.ld x1 r0_0) (View.ld x1 r0_1)
        (View.ld x1 r0_2) (ix2 s l) = Cert.EdgeFeat.norm3 (dvec x0 x1 s l) := by
  rw [pay9_apply, ld0_apply, ld0_apply, ld1_apply, ld1_apply, ld2_apply, ld2_apply]
  rfl

/-- Where an element of output plane `k`'s store sits in the block. -/
theorem emb0_apply (u v : Fin 1) (s : Fin 88) (l : Fin 1024) :
    r0_3.emb (ix4 u v s l) = ix4 (0 : Fin 5) (0 : Fin 1) s l := by
  funext a
  match a with
  | ⟨0, _⟩ => exact Fin.ext (by show 0 + 1 * u.val = 0; omega)
  | ⟨1, _⟩ => exact Fin.ext (by show 0 + 1 * v.val = 0; omega)
  | ⟨2, _⟩ => exact Fin.ext (by show 0 + 1 * s.val = s.val; omega)
  | ⟨3, _⟩ => exact Fin.ext (by show 0 + 1 * l.val = l.val; omega)

theorem emb1_apply (u v : Fin 1) (s : Fin 88) (l : Fin 1024) :
    r0_4.emb (ix4 u v s l) = ix4 (1 : Fin 5) (0 : Fin 1) s l := by
  funext a
  match a with
  | ⟨0, _⟩ => exact Fin.ext (by show 1 + 1 * u.val = 1; omega)
  | ⟨1, _⟩ => exact Fin.ext (by show 0 + 1 * v.val = 0; omega)
  | ⟨2, _⟩ => exact Fin.ext (by show 0 + 1 * s.val = s.val; omega)
  | ⟨3, _⟩ => exact Fin.ext (by show 0 + 1 * l.val = l.val; omega)

theorem emb2_apply (u v : Fin 1) (s : Fin 88) (l : Fin 1024) :
    r0_5.emb (ix4 u v s l) = ix4 (2 : Fin 5) (0 : Fin 1) s l := by
  funext a
  match a with
  | ⟨0, _⟩ => exact Fin.ext (by show 2 + 1 * u.val = 2; omega)
  | ⟨1, _⟩ => exact Fin.ext (by show 0 + 1 * v.val = 0; omega)
  | ⟨2, _⟩ => exact Fin.ext (by show 0 + 1 * s.val = s.val; omega)
  | ⟨3, _⟩ => exact Fin.ext (by show 0 + 1 * l.val = l.val; omega)

theorem emb3_apply (u v : Fin 1) (s : Fin 88) (l : Fin 1024) :
    r0_6.emb (ix4 u v s l) = ix4 (3 : Fin 5) (0 : Fin 1) s l := by
  funext a
  match a with
  | ⟨0, _⟩ => exact Fin.ext (by show 3 + 1 * u.val = 3; omega)
  | ⟨1, _⟩ => exact Fin.ext (by show 0 + 1 * v.val = 0; omega)
  | ⟨2, _⟩ => exact Fin.ext (by show 0 + 1 * s.val = s.val; omega)
  | ⟨3, _⟩ => exact Fin.ext (by show 0 + 1 * l.val = l.val; omega)

theorem emb4_apply (u v : Fin 1) (s : Fin 88) (l : Fin 1024) :
    r0_7.emb (ix4 u v s l) = ix4 (4 : Fin 5) (0 : Fin 1) s l := by
  funext a
  match a with
  | ⟨0, _⟩ => exact Fin.ext (by show 4 + 1 * u.val = 4; omega)
  | ⟨1, _⟩ => exact Fin.ext (by show 0 + 1 * v.val = 0; omega)
  | ⟨2, _⟩ => exact Fin.ext (by show 0 + 1 * s.val = s.val; omega)
  | ⟨3, _⟩ => exact Fin.ext (by show 0 + 1 * l.val = l.val; omega)

/-- The block as ONE function of its index: feature `y 0` of the difference vector at `(y 2, y 3)`. -/
def blockFn (x0 x1 : Vec Ideal S3x1x88x1024 .f32) : Vec Ideal S5x1x88x1024 .f32 := fun y =>
  Cert.EdgeFeat.rowFeat (dvec x0 x1 (⟨(y 2).val, (y 2).isLt⟩ : Fin 88) (⟨(y 3).val, (y 3).isLt⟩ : Fin 1024))
    (⟨(y 0).val, (y 0).isLt⟩ : Fin 5)

theorem blockFn_ix4 (x0 x1 : Vec Ideal S3x1x88x1024 .f32) (c : Fin 5) (u : Fin 1) (s : Fin 88) (l : Fin 1024) :
    blockFn x0 x1 (ix4 c u s l) = Cert.EdgeFeat.rowFeat (dvec x0 x1 s l) c := rfl

/-- The cutoff comparison payload at `(s, l)`. -/
theorem pay10_apply (v0 v2 v4 v6 v8 v10 : Vec Ideal S1x1x88x1024 .f32) (j : S88x1024.Idx) :
    k0_pay10 (F := Ideal) v0 v2 v4 v6 v8 v10 j
      = Ideal.cmp .olt (k0_pay9 (F := Ideal) v0 v2 v4 v6 v8 v10 j) (Ideal.ofBits .f32 0x40A00000#32) := rfl

/-- The cosine payload at `(s, l)`. -/
theorem pay11_apply (v0 v2 v4 v6 v8 v10 : Vec Ideal S1x1x88x1024 .f32) (j : S88x1024.Idx) :
    k0_pay11 (F := Ideal) v0 v2 v4 v6 v8 v10 j
      = Ideal.ofBits .f32 0x3F000000#32
          * Ideal.cos (k0_pay9 (F := Ideal) v0 v2 v4 v6 v8 v10 j * Ideal.ofBits .f32 0x3F20D97C#32)
        + Ideal.ofBits .f32 0x3F000000#32 := rfl

/-- The switch payload, stored, at `(u, v, s, l)`. -/
theorem pay5_apply (m : IVec S88x1024 1) (w : FVec Ideal S88x1024 .f32) (z : Ideal .f32) (u v : Fin 1) (s : Fin 88)
    (l : Fin 1024) :
    k0_pay5 (F := Ideal) m w z (ix4 u v s l) = Scalar.select (m (ix2 s l)) (w (ix2 s l)) z := by
  show shapeCast S1x1x88x1024 (select m w (broadcast S88x1024 z)) _ (ix4 u v s l) = _
  rw [shapeCast_ab_11ab_apply]
  rfl

/-- A value stored through the cast that adds the two unit axes, at `(u, v, s, l)`. -/
theorem pay1_apply (w : FVec Ideal S88x1024 .f32) (u v : Fin 1) (s : Fin 88) (l : Fin 1024) :
    k0_pay1 (F := Ideal) w (ix4 u v s l) = w (ix2 s l) := shapeCast_ab_11ab_apply w _ u v s l
theorem pay2_apply (w : FVec Ideal S88x1024 .f32) (u v : Fin 1) (s : Fin 88) (l : Fin 1024) :
    k0_pay2 (F := Ideal) w (ix4 u v s l) = w (ix2 s l) := shapeCast_ab_11ab_apply w _ u v s l
theorem pay3_apply (w : FVec Ideal S88x1024 .f32) (u v : Fin 1) (s : Fin 88) (l : Fin 1024) :
    k0_pay3 (F := Ideal) w (ix4 u v s l) = w (ix2 s l) := shapeCast_ab_11ab_apply w _ u v s l
theorem pay4_apply (w : FVec Ideal S88x1024 .f32) (u v : Fin 1) (s : Fin 88) (l : Fin 1024) :
    k0_pay4 (F := Ideal) w (ix4 u v s l) = w (ix2 s l) := shapeCast_ab_11ab_apply w _ u v s l

/-- Plane 4's store holds the switch of the distance. -/
theorem piece4 (x0 x1 : Vec Ideal S3x1x88x1024 .f32) (x : r0_7.shape.Idx) :
    k0_pay5 (F := Ideal) (k0_pay10 (View.ld x0 r0_0) (View.ld x0 r0_1) (View.ld x0 r0_2) (View.ld x1 r0_0) (View.ld x1 r0_1) (View.ld x1 r0_2)) (k0_pay11 (View.ld x0 r0_0) (View.ld x0 r0_1) (View.ld x0 r0_2) (View.ld x1 r0_0) (View.ld x1 r0_1) (View.ld x1 r0_2)) (Scalar.ofBits .f32 0x00000000#32) x
      = blockFn x0 x1 (r0_7.emb x) := by
  obtain ⟨u, v, s, l, rfl⟩ : ∃ (u v : Fin 1) (s : Fin 88) (l : Fin 1024), x = ix4 u v s l := ⟨_, _, _, _, eq_ix4 x⟩
  rw [emb4_apply, blockFn_ix4, pay5_apply, pay10_apply, pay11_apply, norm_apply]
  rfl

/-- Plane 3's store holds the distance. -/
theorem piece3 (x0 x1 : Vec Ideal S3x1x88x1024 .f32) (x : r0_6.shape.Idx) :
    k0_pay4 (F := Ideal) (k0_pay9 (View.ld x0 r0_0) (View.ld x0 r0_1) (View.ld x0 r0_2) (View.ld x1 r0_0) (View.ld x1 r0_1) (View.ld x1 r0_2)) x = blockFn x0 x1 (r0_6.emb x) := by
  obtain ⟨u, v, s, l, rfl⟩ : ∃ (u v : Fin 1) (s : Fin 88) (l : Fin 1024), x = ix4 u v s l := ⟨_, _, _, _, eq_ix4 x⟩
  rw [emb3_apply, blockFn_ix4, pay4_apply, norm_apply]
  rfl

/-- Plane 2's store holds the third difference. -/
theorem piece2 (x0 x1 : Vec Ideal S3x1x88x1024 .f32) (x : r0_5.shape.Idx) :
    k0_pay3 (F := Ideal) (k0_pay8 (View.ld x0 r0_2) (View.ld x1 r0_2)) x = blockFn x0 x1 (r0_5.emb x) := by
  obtain ⟨u, v, s, l, rfl⟩ : ∃ (u v : Fin 1) (s : Fin 88) (l : Fin 1024), x = ix4 u v s l := ⟨_, _, _, _, eq_ix4 x⟩
  rw [emb2_apply, blockFn_ix4, pay3_apply, pay8_apply, ld2_apply, ld2_apply]
  rfl

/-- Plane 1's store holds the second difference. -/
theorem piece1 (x0 x1 : Vec Ideal S3x1x88x1024 .f32) (x : r0_4.shape.Idx) :
    k0_pay2 (F := Ideal) (k0_pay7 (View.ld x0 r0_1) (View.ld x1 r0_1)) x = blockFn x0 x1 (r0_4.emb x) := by
  obtain ⟨u, v, s, l, rfl⟩ : ∃ (u v : Fin 1) (s : Fin 88) (l : Fin 1024), x = ix4 u v s l := ⟨_, _, _, _, eq_ix4 x⟩
  rw [emb1_apply, blockFn_ix4, pay2_apply, pay7_apply, ld1_apply, ld1_apply]
  rfl

/-- Plane 0's store holds the first difference. -/
theorem piece0 (x0 x1 : Vec Ideal S3x1x88x1024 .f32) (x : r0_3.shape.Idx) :
    k0_pay1 (F := Ideal) (k0_pay6 (View.ld x0 r0_0) (View.ld x1 r0_0)) x = blockFn x0 x1 (r0_3.emb x) := by
  obtain ⟨u, v, s, l, rfl⟩ : ∃ (u v : Fin 1) (s : Fin 88) (l : Fin 1024), x = ix4 u v s l := ⟨_, _, _, _, eq_ix4 x⟩
  rw [emb0_apply, blockFn_ix4, pay1_apply, pay6_apply, ld0_apply, ld0_apply]
  rfl

/-- The output block at `(c, 0, s, l)`: `x0` is the source block, `x1` the destination block. -/
theorem out_apply (x0 x1 : Vec Ideal S3x1x88x1024 .f32) (c : Fin 5) (s : Fin 88) (l : Fin 1024) :
    out0_2 (F := Ideal) x0 x1 (ix4 c (0 : Fin 1) s l)
      = Cert.EdgeFeat.rowFeat (fun k : Fin 3 => x1 (ix4 k (0 : Fin 1) s l) - x0 (ix4 k (0 : Fin 1) s l)) c := by
  unfold out0_2
  refine (View.canon_apply_of_pieces (blockFn x0 x1) _ ?_ (ix4 c (0 : Fin 1) s l) (cover0_2 _ _ _ _ _ _)).trans
    (blockFn_ix4 x0 x1 c 0 s l)
  intro p hp
  simp only [List.mem_cons, List.mem_nil_iff, or_false] at hp
  rcases hp with rfl | rfl | rfl | rfl | rfl
  · exact piece4 x0 x1
  · exact piece3 x0 x1
  · exact piece2 x0 x1
  · exact piece1 x0 x1
  · exact piece0 x0 x1

end Cert.KernelIdeal.BlockValue

end
-- ==== Proof.KArray.lean ====
/-
  From blocks to the array. Grid point `t` of the 93 stages block `(·, t, ·, ·)` of each operand: all three planes of the
  source and of the destination coordinates of the 88 × 1024 edges numbered `t · 90112 + s · 1024 + l`, and writes back
  block `(·, t, ·, ·)` of the five output planes. The blocks of the output partition its array, so after the run the
  array is ONE function of the two gathered coordinate arrays: at `(c, t, s, l)` feature `c` of the difference of the
  operands' three planes at `(t, s, l)`.
-/
import proofs.«420826_j65910568124748_3_alg».proof.Proof.Gen.KernelIdeal.Frame
import proofs.«420826_j65910568124748_3_alg».proof.Proof.Spec
import proofs.«420826_j65910568124748_3_alg».proof.Proof.KBlock
import Idealize.ShloMosaic.Lib.Pipeline.Value

noncomputable section

namespace Cert.KernelIdeal.ArrayValue

open Cert.KernelIdeal Cert.KernelIdeal.Gen Idealize.ShloMosaic Idealize.ShloMosaic.TcCoe Idealize.ShloMosaic.ValueIdx
open Idealize.SL.Sem
open Idealize.ShloMosaic.Pipeline (Dat)

/-- The five feature planes of the difference of two arrays of three coordinate planes, element by element. -/
def planar (X0 X1 : S3x93x88x1024.Idx → EReal) : S5x93x88x1024.Idx → EReal := fun i =>
  Cert.EdgeFeat.rowFeat
    (fun k : Fin 3 =>
      X1 (ix4 k (⟨(i 1).val, (i 1).isLt⟩ : Fin 93) (⟨(i 2).val, (i 2).isLt⟩ : Fin 88) (⟨(i 3).val, (i 3).isLt⟩ : Fin 1024))
        - X0 (ix4 k (⟨(i 1).val, (i 1).isLt⟩ : Fin 93) (⟨(i 2).val, (i 2).isLt⟩ : Fin 88) (⟨(i 3).val, (i 3).isLt⟩ : Fin 1024)))
    (⟨(i 0).val, (i 0).isLt⟩ : Fin 5)

theorem planar_ix4 (X0 X1 : S3x93x88x1024.Idx → EReal) (c : Fin 5) (t : Fin 93) (s : Fin 88) (l : Fin 1024) :
    planar X0 X1 (ix4 c t s l) = Cert.EdgeFeat.rowFeat (fun k : Fin 3 => X1 (ix4 k t s l) - X0 (ix4 k t s l)) c := rfl

/-- A grid point is below 93. -/
theorem point_lt (t : Fin cfg0.N) : t.val < 93 := Nat.lt_of_lt_of_eq t.isLt N_0

/-- The three index maps, decided over the grid: block `t` of every operand is `(0, t, 0, 0)`. -/
theorem index_facts : ∀ t : Fin cfg0.N,
    (win0_0.index t (0 : Fin 4) = 0 ∧ win0_0.index t (1 : Fin 4) = t.val ∧ win0_0.index t (2 : Fin 4) = 0 ∧ win0_0.index t (3 : Fin 4) = 0)
    ∧ (win0_1.index t (0 : Fin 4) = 0 ∧ win0_1.index t (1 : Fin 4) = t.val ∧ win0_1.index t (2 : Fin 4) = 0 ∧ win0_1.index t (3 : Fin 4) = 0)
    ∧ (win0_2.index t (0 : Fin 4) = 0 ∧ win0_2.index t (1 : Fin 4) = t.val ∧ win0_2.index t (2 : Fin 4) = 0 ∧ win0_2.index t (3 : Fin 4) = 0) :=
  (by decide +kernel : ∀ t : Fin grid0.N, _)

/-- Block `t` of an array of the first operand's shape, element `(k, 0, s, l)`, is the array at `(k, t, s, l)`. -/
theorem src_read (X : S3x93x88x1024.Idx → EReal) (t : Fin cfg0.N) (k : Fin 3) (s : Fin 88) (l : Fin 1024) :
    ((cfg0.win 0).blk t).view.read (Elt Ideal) X (ix4 k (0 : Fin 1) s l) = X (ix4 k (⟨t.val, point_lt t⟩ : Fin 93) s l) := by
  show X (((cfg0.win 0).blk t).view.emb (ix4 k (0 : Fin 1) s l)) = X (ix4 k (⟨t.val, point_lt t⟩ : Fin 93) s l)
  obtain ⟨⟨e0, e1, e2, e3⟩, -, -⟩ := index_facts t
  refine congrArg X (funext fun a => Fin.ext ?_)
  match a with
  | ⟨0, _⟩ => show win0_0.index t (0 : Fin 4) * 3 + 1 * k.val = k.val; omega
  | ⟨1, _⟩ => show win0_0.index t (1 : Fin 4) * 1 + 1 * 0 = t.val; omega
  | ⟨2, _⟩ => show win0_0.index t (2 : Fin 4) * 88 + 1 * s.val = s.val; omega
  | ⟨3, _⟩ => show win0_0.index t (3 : Fin 4) * 1024 + 1 * l.val = l.val; omega

/-- The second operand's blocks likewise. -/
theorem dst_read (X : S3x93x88x1024.Idx → EReal) (t : Fin cfg0.N) (k : Fin 3) (s : Fin 88) (l : Fin 1024) :
    ((cfg0.win 1).blk t).view.read (Elt Ideal) X (ix4 k (0 : Fin 1) s l) = X (ix4 k (⟨t.val, point_lt t⟩ : Fin 93) s l) := by
  show X (((cfg0.win 1).blk t).view.emb (ix4 k (0 : Fin 1) s l)) = X (ix4 k (⟨t.val, point_lt t⟩ : Fin 93) s l)
  obtain ⟨-, ⟨e0, e1, e2, e3⟩, -⟩ := index_facts t
  refine congrArg X (funext fun a => Fin.ext ?_)
  match a with
  | ⟨0, _⟩ => show win0_1.index t (0 : Fin 4) * 3 + 1 * k.val = k.val; omega
  | ⟨1, _⟩ => show win0_1.index t (1 : Fin 4) * 1 + 1 * 0 = t.val; omega
  | ⟨2, _⟩ => show win0_1.index t (2 : Fin 4) * 88 + 1 * s.val = s.val; omega
  | ⟨3, _⟩ => show win0_1.index t (3 : Fin 4) * 1024 + 1 * l.val = l.val; omega

/-- Element `(c, 0, s, l)` of the output block at point `t` sits at `(c, t, s, l)` of the output array. -/
theorem out_emb (t : Fin cfg0.N) (cc : Fin 5) (s : Fin 88) (l : Fin 1024) :
    ((cfg0.win 2).blk t).view.emb (ix4 cc (0 : Fin 1) s l) = (ix4 cc (⟨t.val, point_lt t⟩ : Fin 93) s l : S5x93x88x1024.Idx) := by
  obtain ⟨-, -, ⟨e0, e1, e2, e3⟩⟩ := index_facts t
  refine funext fun a => Fin.ext ?_
  match a with
  | ⟨0, _⟩ => show win0_2.index t (0 : Fin 4) * 5 + 1 * cc.val = cc.val; omega
  | ⟨1, _⟩ => show win0_2.index t (1 : Fin 4) * 1 + 1 * 0 = t.val; omega
  | ⟨2, _⟩ => show win0_2.index t (2 : Fin 4) * 88 + 1 * s.val = s.val; omega
  | ⟨3, _⟩ => show win0_2.index t (3 : Fin 4) * 1024 + 1 * l.val = l.val; omega

/-- The body's result on block `t` of any two operand arrays is block `t` of their feature planes. -/
theorem block_eq (X0 X1 : S3x93x88x1024.Idx → EReal) (t : Fin cfg0.N) :
    (cfg0.win 2).cut (grid0.coords t)
        (out0_2 (F := Ideal) (((cfg0.win 0).blk t).view.read (Elt Ideal) X0) (((cfg0.win 1).blk t).view.read (Elt Ideal) X1))
      = ((cfg0.win 2).blk t).view.read (Elt Ideal) (planar X0 X1) := by
  funext y
  obtain ⟨cc, u, s, l, rfl⟩ : ∃ (cc : Fin 5) (u : Fin 1) (s : Fin 88) (l : Fin 1024), y = ix4 cc u s l :=
    ⟨y 0, y 1, y 2, y 3, eq_ix4 y⟩
  obtain rfl : u = 0 := Subsingleton.elim _ _
  show out0_2 (F := Ideal) (((cfg0.win 0).blk t).view.read (Elt Ideal) X0) (((cfg0.win 1).blk t).view.read (Elt Ideal) X1) (ix4 cc (0 : Fin 1) s l)
    = planar X0 X1 (((cfg0.win 2).blk t).view.emb (ix4 cc (0 : Fin 1) s l))
  rw [out_emb t cc s l, planar_ix4]
  refine (Cert.KernelIdeal.BlockValue.out_apply _ _ cc s l).trans ?_
  refine congrArg (fun v => Cert.EdgeFeat.rowFeat v cc) (funext fun k => ?_)
  exact congrArg₂ (fun a b : EReal => a - b) (dst_read X1 t k s l) (src_read X0 t k s l)

variable (m : (ℓ : Loc nD τ sig) → Buf (Elt Ideal) ℓ)

/-- WHAT POINT `t` WRITES BACK is block `t` of the feature planes of the two operand arrays as the region finds them. -/
theorem flushed_eq (c : Dev nD) (t : Fin cfg0.N) :
    (dats m 0 c).flushed 2 t
      = ((cfg0.win 2).blk t).view.read (Elt Ideal) (planar (V m c (Pipeline.arrRef spec0 0)) (V m c (Pipeline.arrRef spec0 1))) := by
  show (cfg0.win 2).cut (grid0.coords t) ((dats m 0 c).after 2 t) = _
  rw [after0_2]
  unfold iblk
  exact block_eq (V m c (Pipeline.arrRef spec0 0)) (V m c (Pipeline.arrRef spec0 1)) t

/-- An index of the output array is in point `t`'s block iff each coordinate is in the block's range on its axis. -/
theorem mem_blk (t : Fin cfg0.N) (i : S5x93x88x1024.Idx) :
    i ∈ ((cfg0.win 2).blk t).view.set ↔ ∀ a : Fin 4, win0_2.index t a * S5x1x88x1024.size a ≤ (i a).val ∧ (i a).val < win0_2.index t a * S5x1x88x1024.size a + S5x1x88x1024.size a := by
  show i ∈ ((View.whole main_v5).slice (win0_2.rect t)).set ↔ _
  rw [View.set_slice_whole, Rect.mem_set_unit]
  exact Iff.rfl

/-- Every index of the output array is in the block of the point its second coordinate names. -/
theorem cover (i : S5x93x88x1024.Idx) : ∃ t : Fin cfg0.N, (cfg0.win 2).flush t = true ∧ i ∈ ((cfg0.win 2).blk t).view.set := by
  have h0 : (i 0).val < 5 := (i 0).isLt
  have h1 : (i 1).val < 93 := (i 1).isLt
  have h2 : (i 2).val < 88 := (i 2).isLt
  have h3 : (i 3).val < 1024 := (i 3).isLt
  have hN : (i 1).val < cfg0.N := Nat.lt_of_lt_of_eq h1 N_0.symm
  refine ⟨⟨(i 1).val, hN⟩, flush0_2 _, ?_⟩
  rw [mem_blk]
  obtain ⟨-, -, ⟨e0, e1, e2, e3⟩⟩ := index_facts ⟨(i 1).val, hN⟩
  have e1' : win0_2.index ⟨(i 1).val, hN⟩ (1 : Fin 4) = (i 1).val := e1
  intro a
  match a with
  | ⟨0, _⟩ => show win0_2.index ⟨(i 1).val, hN⟩ (0 : Fin 4) * 5 ≤ (i 0).val ∧ (i 0).val < win0_2.index ⟨(i 1).val, hN⟩ (0 : Fin 4) * 5 + 5; omega
  | ⟨1, _⟩ => show win0_2.index ⟨(i 1).val, hN⟩ (1 : Fin 4) * 1 ≤ (i 1).val ∧ (i 1).val < win0_2.index ⟨(i 1).val, hN⟩ (1 : Fin 4) * 1 + 1; omega
  | ⟨2, _⟩ => show win0_2.index ⟨(i 1).val, hN⟩ (2 : Fin 4) * 88 ≤ (i 2).val ∧ (i 2).val < win0_2.index ⟨(i 1).val, hN⟩ (2 : Fin 4) * 88 + 88; omega
  | ⟨3, _⟩ => show win0_2.index ⟨(i 1).val, hN⟩ (3 : Fin 4) * 1024 ≤ (i 3).val ∧ (i 3).val < win0_2.index ⟨(i 1).val, hN⟩ (3 : Fin 4) * 1024 + 1024; omega

/-- THE OUTPUT ARRAY after the run: the feature planes of the two operand arrays as the region finds them. -/
theorem final (c : Dev nD) :
    (dats m 0 c).arrAt 2 cfg0.N = planar (V m c (Pipeline.arrRef spec0 0)) (V m c (Pipeline.arrRef spec0 1)) :=
  (dats m 0 c).arrAt_eq_of_cover 2 (planar (V m c (Pipeline.arrRef spec0 0)) (V m c (Pipeline.arrRef spec0 1)))
    (fun t _ => flushed_eq m c t) cover

end Cert.KernelIdeal.ArrayValue

end
-- ==== Proof.KRun.lean ====
/-
  The kernel program's run, read back. After the region the program reshapes the five output planes `[5, 93, 88, 1024]` to
  `[5, 8380416]` and transposes to `[8380416, 5]`: row `e`, column `c` of the result is plane `c` at edge `e`'s tile, sublane
  and lane. With the planes the feature planes of the two gathered coordinate arrays, and every index word in
  `[-8192, 8192)`, that is feature `c` of edge `e`: the edge-feature function of the three arguments.
-/
import proofs.«420826_j65910568124748_3_alg».proof.Proof.Gen.KernelIdeal.Frame
import proofs.«420826_j65910568124748_3_alg».proof.Proof.Spec
import proofs.«420826_j65910568124748_3_alg».proof.Proof.Layout
import proofs.«420826_j65910568124748_3_alg».proof.Proof.KHost
import proofs.«420826_j65910568124748_3_alg».proof.Proof.KArray
import Idealize.ShloMosaic.Lib.StableHlo.Run
import Idealize.ShloMosaic.Lib.Pipeline.Value

noncomputable section

namespace Cert.KernelIdeal.RunValue

open Cert.KernelIdeal Cert.KernelIdeal.Gen Idealize.ShloMosaic Idealize.ShloMosaic.TcCoe Idealize.SL.Sem
open Idealize.ShloMosaic.StableHlo Idealize.ShloMosaic.ValueIdx
open Cert.KernelIdeal.HostValue Cert.KernelIdeal.ArrayValue Cert.EdgeFeat.Layout

/-- The result array of five planes: flattened over the edges, then edge-major. -/
def resultOf (Pl : S5x93x88x1024.Idx → EReal) : S8380416x5.Idx → EReal :=
  transpose S8380416x5 [1, 0] (shapeCast S5x8380416 Pl shapeCasts_S5x93x88x1024_S5x8380416) transposes_S5x8380416_S8380416x5_1_0

/-- Row `e`, column `c` of the result is plane `c` at edge `e`'s place in the tiling. -/
theorem resultOf_apply (Pl : S5x93x88x1024.Idx → EReal) (e : Fin 8380416) (c : Fin 5) :
    resultOf Pl (ix2 e c) = Pl (ix4 c (tile e) (sublane e) (lane e)) := by
  unfold resultOf
  refine (transpose_apply [1, 0] _ transposes_S5x8380416_S8380416x5_1_0 (ix2 e c) (ix2 c e) (fun b => by
    match b with
    | ⟨0, _⟩ => rfl
    | ⟨1, _⟩ => rfl)).trans ?_
  exact flat_apply Pl shapeCasts_S5x93x88x1024_S5x8380416 c e

/-- The result of the feature planes of two reshaped takes from one table, every index word in range, is the edge-feature
    function of the table and the two index arrays. -/
theorem result_feat (coords : FVec Ideal S8192x3 .f32) (src dst : IVec S8380416 32)
    (hs : ∀ i : S8380416.Idx, IntOp.cmpi .sge (src i) 4294959104#32 = 1#1 ∧ IntOp.cmpi .slt (src i) 8192#32 = 1#1)
    (hd : ∀ i : S8380416.Idx, IntOp.cmpi .sge (dst i) 4294959104#32 = 1#1 ∧ IntOp.cmpi .slt (dst i) 8192#32 = 1#1) :
    resultOf (planar
        (shapeCast S3x93x88x1024 (takeCols (transpose S3x8192 [1, 0] coords transposes_S8192x3_S3x8192_1_0) src) shapeCasts_S3x8380416_S3x93x88x1024)
        (shapeCast S3x93x88x1024 (takeCols (transpose S3x8192 [1, 0] coords transposes_S8192x3_S3x8192_1_0) dst) shapeCasts_S3x8380416_S3x93x88x1024))
      = Cert.EdgeFeat.feat coords src dst := by
  funext j
  obtain ⟨e, c, rfl⟩ : ∃ (e : Fin 8380416) (c : Fin 5), j = ix2 e c := ⟨j 0, j 1, eq_ix2 j⟩
  rw [Cert.EdgeFeat.feat_ix2, resultOf_apply, planar_ix4]
  refine congrArg (fun v => Cert.EdgeFeat.rowFeat v c) (funext fun k => ?_)
  show shapeCast S3x93x88x1024 (takeCols (transpose S3x8192 [1, 0] coords transposes_S8192x3_S3x8192_1_0) dst) shapeCasts_S3x8380416_S3x93x88x1024 (ix4 k (tile e) (sublane e) (lane e))
      - shapeCast S3x93x88x1024 (takeCols (transpose S3x8192 [1, 0] coords transposes_S8192x3_S3x8192_1_0) src) shapeCasts_S3x8380416_S3x93x88x1024 (ix4 k (tile e) (sublane e) (lane e))
    = coords (ix2 (Cert.EdgeFeat.rowAt (Cert.EdgeFeat.wrap (dst (ix1 e)))) k) - coords (ix2 (Cert.EdgeFeat.rowAt (Cert.EdgeFeat.wrap (src (ix1 e)))) k)
  rw [tiled_apply _ shapeCasts_S3x8380416_S3x93x88x1024 k e, tiled_apply _ shapeCasts_S3x8380416_S3x93x88x1024 k e,
    takeCols_apply _ dst hd k e, takeCols_apply _ src hs k e, transposed_apply, transposed_apply]

variable (m : (ℓ : Loc nD τ sig) → Buf (Elt Ideal) ℓ) (ρ : Dev nD → PrngReg)

/-- What the lines after the region leave in the result buffer: the result array of the output planes after the run. -/
theorem tail_result (c : Dev nD) :
    Pipeline.afterTail₀ cfgs (dats m) 0 (V0 m) [hostOps1] c main_v7 = resultOf ((dats m 0 c).arrAt 2 cfg0.N) := by
  unfold Pipeline.afterTail₀
  show StableHlo.after hostOps1 _ (Proc.devRef .tc main_v7) = _
  after_results
  rw [show Pipeline.withArrays (cfgs 0).spec c (V0 m c) (fun w => (dats m 0 c).arrAt w (cfgs 0).N) (Proc.devRef .tc main_v5)
      = (dats m 0 c).arrAt 2 cfg0.N from Pipeline.withArrays_arr spec0 launch0.win.arr_inj c _ _ 2]
  rfl

/-- The operand arrays the output planes are computed from are the two reshaped takes. -/
theorem planes_eq (c : Dev nD) :
    (dats m 0 c).arrAt 2 cfg0.N
      = planar
          (shapeCast S3x93x88x1024
            (takeCols (F := Ideal) (transpose S3x8192 [1, 0] (m (c, Proc.devRef .tc main_arg0)) transposes_S8192x3_S3x8192_1_0) (m (c, Proc.devRef .tc main_arg1)))
            shapeCasts_S3x8380416_S3x93x88x1024)
          (shapeCast S3x93x88x1024
            (takeCols (F := Ideal) (transpose S3x8192 [1, 0] (m (c, Proc.devRef .tc main_arg0)) transposes_S8192x3_S3x8192_1_0) (m (c, Proc.devRef .tc main_arg2)))
            shapeCasts_S3x8380416_S3x93x88x1024) := by
  rw [final m c]
  exact congrArg₂ planar (V_src m c) (V_dst m c)

/-- THE RUN, READ BACK: with every index word of both index arrays in `[-8192, 8192)`, every weakly fair execution ends with
    the result buffer at the edge-feature function of the three arguments, and the arguments as launched. -/
theorem run_feat
    (hs : ∀ (c : Dev nD) (i : S8380416.Idx), IntOp.cmpi .sge (m ((c.tc : Thread nD τ).loc main_arg1) i) 4294959104#32 = 1#1
      ∧ IntOp.cmpi .slt (m ((c.tc : Thread nD τ).loc main_arg1) i) 8192#32 = 1#1)
    (hd : ∀ (c : Dev nD) (i : S8380416.Idx), IntOp.cmpi .sge (m ((c.tc : Thread nD τ).loc main_arg2) i) 4294959104#32 = 1#1
      ∧ IntOp.cmpi .slt (m ((c.tc : Thread nD τ).loc main_arg2) i) 8192#32 = 1#1) :
    θ_run defs (onTc (τ := τ) (main (F := Ideal))) ⟨m, fun _ => 0, ρ⟩ (fun r => ∀ c : Dev nD,
      r.2.mem ((c.tc : Thread nD τ).loc main_v7)
        = Cert.EdgeFeat.feat (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v7 (Pipeline.mem_restRefs_of main_v7 (by decide) (by decide))).trans
        ((tail_result m c).trans ((congrArg resultOf (planes_eq m c)).trans
          (result_feat (m ((c.tc : Thread nD τ).loc main_arg0)) (m ((c.tc : Thread nD τ).loc main_arg1)) (m ((c.tc : Thread nD τ).loc main_arg2))
            (hs c) (hd c)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.lean ====
/-
  Edge features of a point cloud: for each directed edge, the difference vector of its end points' coordinates, its length,
  and a cosine switch of the length that vanishes from the cutoff 5 on. The kernel gathers the coordinates from the
  transposed table, computes on tiles of 88 × 1024 edges and lays the five feature planes out edge-major at the end; the
  reference gathers rows, takes norms over the last axis and concatenates. Both are ONE function of the three arguments
  (Proof/Spec.lean, `feat`) wherever every index word lies in `[-8192, 8192)`, the range in which an index names a row of the
  table (a negative one counted from its end): outside it the reference reads a clamped row where the kernel's take puts a
  fill value, which is why the precondition states the range. Over the extended reals the two sides then agree term by term:
  the same differences, the same three squares summed in the same order from zero, the same root, comparison, cosine and
  constants, the same select.

  The kernel program's run is read off its frame certificate (Proof/KHost.lean: the operand arrays at region entry;
  Proof/KBlock.lean: one block of the body; Proof/KArray.lean: the output array; Proof/KRun.lean: the lines after the region
  and the run); the reference's from its run and stages (Proof/RefValue.lean); the precondition is read back in
  Proof/PreRange.lean. `preserves` has no conjunct: the idealized kernel is the kernel's own text read over the extended reals.
-/
import proofs.«420826_j65910568124748_3_alg».proof.Defs
import proofs.«420826_j65910568124748_3_alg».proof.Proof.Gen.Kernel
import proofs.«420826_j65910568124748_3_alg».proof.Proof.Gen.Kernel.Skeleton
import proofs.«420826_j65910568124748_3_alg».proof.Proof.Gen.Kernel.Launch
import proofs.«420826_j65910568124748_3_alg».proof.Proof.Gen.Kernel.Points
import proofs.«420826_j65910568124748_3_alg».proof.Proof.Gen.Kernel.Frame
import proofs.«420826_j65910568124748_3_alg».proof.Proof.Gen.KernelIdeal
import proofs.«420826_j65910568124748_3_alg».proof.Proof.Gen.KernelIdeal.Skeleton
import proofs.«420826_j65910568124748_3_alg».proof.Proof.Gen.KernelIdeal.Launch
import proofs.«420826_j65910568124748_3_alg».proof.Proof.Gen.KernelIdeal.Points
import proofs.«420826_j65910568124748_3_alg».proof.Proof.Gen.KernelIdeal.Frame
import proofs.«420826_j65910568124748_3_alg».proof.Proof.Gen.ReferenceIdeal
import proofs.«420826_j65910568124748_3_alg».proof.Proof.Gen.Pre_finite_inputs
import proofs.«420826_j65910568124748_3_alg».proof.Proof.Gen.ReferenceIdeal.Run
import proofs.«420826_j65910568124748_3_alg».proof.Proof.Gen.ReferenceIdeal.Read
import proofs.«420826_j65910568124748_3_alg».proof.Proof.Spec
import proofs.«420826_j65910568124748_3_alg».proof.Proof.PreRange
import proofs.«420826_j65910568124748_3_alg».proof.Proof.RefValue
import proofs.«420826_j65910568124748_3_alg».proof.Proof.KRun
import Idealize.ShloMosaic.Adequacy
import Idealize.ShloMosaic.Init

noncomputable section

namespace Cert.Proof

open Idealize.ShloMosaic Idealize.SL.Sem Cert.Kernel

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition, both programs end with the edge-feature function
    of the arguments in their result buffers. -/
theorem algebraic : Cert.algebraic_KernelIdeal_ReferenceIdeal := by
  intro m ρ m' ρ' hpre hagree
  have hr := fun c => Cert.EdgeFeat.Pre.range_of_pre _ _ _ (hpre c)
  refine ⟨fun c => Cert.EdgeFeat.feat
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RunValue.run_feat m ρ (fun c i => (hr c).1 i) (fun c i => (hr c).2 i), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v28_eq, Cert.ReferenceIdeal.RefValue.ref_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
